-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S128x768 .f32 .bf16
  ∧ IdealRules.truncf_extf.Statement Cert.KernelIdeal.S512x768 .f32 .bf16
  ∧ IdealRules.truncf_extf.Statement Cert.KernelIdeal.S128x768 .f32 .bf16
  ∧ IdealRules.truncf_extf.Statement Cert.KernelIdeal.S512x768 .f32 .bf16
  ∧ IdealRules.truncf_extf.Statement Cert.KernelIdeal.S128x768 .f32 .bf16
  ∧ IdealRules.truncf_extf.Statement Cert.KernelIdeal.S512x768 .f32 .bf16
  ∧ IdealRules.truncf_extf.Statement Cert.KernelIdeal.S128x768 .f32 .bf16
  ∧ IdealRules.truncf_extf.Statement Cert.KernelIdeal.S512x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x128 : Shape := ⟨2, ![64, 128]⟩
abbrev S128x4 : Shape := ⟨2, ![128, 4]⟩
abbrev S5x768 : Shape := ⟨2, ![5, 768]⟩
abbrev S1x768 : Shape := ⟨2, ![1, 768]⟩
abbrev S768 : Shape := ⟨1, ![768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S5x768 : S_.BroadcastsInDim S5x768 (![] : Fin 0 → Fin S5x768.rank)
  reducesTo_S5x768_S_d0_1 : S5x768.ReducesTo [0, 1] S_
  bcast_S_S1x768 : S_.BroadcastsInDim S1x768 (![] : Fin 0 → Fin S1x768.rank)
  reducesTo_S1x768_S_d0_1 : S1x768.ReducesTo [0, 1] S_
  bcast_S_S768 : S_.BroadcastsInDim S768 (![] : Fin 0 → Fin S768.rank)
  reducesTo_S768_S_d0 : S768.ReducesTo [0] S_
  bcast_S_S128x4 : S_.BroadcastsInDim S128x4 (![] : Fin 0 → Fin S128x4.rank)
  reducesTo_S128x4_S_d0_1 : S128x4.ReducesTo [0, 1] S_

variable [Facts]

def fn_part2 {F : FTy → Type} [FloatOps F] (main_arg3 : IVec S128x4 32) (main_v31 : IVec S_ 1) (main_v32 : IVec S128x4 32) : IVec S_ 1 :=
  let main_v33 : IVec S128x4 1 := cmpi .sge main_arg3 main_v32
  let main_c_13 : IVec S_ 1 := constantI S_ 1 1#1
  let main_v34 : IVec S_ 1 := (fun x v => Host.reduce IntOp.andi x v reducesTo_S128x4_S_d0_1 h_S_) main_v33 main_c_13
  let main_v35 : IVec S_ 1 := andi main_v31 main_v34
  let main_c_14 : IVec S_ 32 := constantI S_ 32 512#32
  let main_v36 : IVec S128x4 32 := broadcastInDim S128x4 ![] bcast_S_S128x4 main_c_14
  let main_v37 : IVec S128x4 1 := cmpi .slt main_arg3 main_v36
  let main_c_15 : IVec S_ 1 := constantI S_ 1 1#1
  let main_v38 : IVec S_ 1 := (fun x v => Host.reduce IntOp.andi x v reducesTo_S128x4_S_d0_1 h_S_) main_v37 main_c_15
  let main_v39 : IVec S_ 1 := andi main_v35 main_v38
  main_v39

def fn_part1 {F : FTy → Type} [FloatOps F] (main_arg1 : IVec S64x128 32) (main_arg3 : IVec S128x4 32) (main_arg6 : FVec F S768 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_c_8 : IVec S_ 32 := constantI S_ 32 0#32
  let main_v24 : IVec S64x128 32 := broadcastInDim S64x128 ![] bcast_S_S64x128 main_c_8
  let main_v25 : IVec S64x128 1 := cmpi .sge main_arg1 main_v24
  let main_c_9 : IVec S_ 1 := constantI S_ 1 1#1
  let main_v26 : IVec S_ 1 := (fun x v => Host.reduce IntOp.andi x v reducesTo_S64x128_S_d0_1 h_S_) main_v25 main_c_9
  let main_v27 : IVec S_ 1 := andi main_v23 main_v26
  let main_c_10 : IVec S_ 32 := constantI S_ 32 5#32
  let main_v28 : IVec S64x128 32 := broadcastInDim S64x128 ![] bcast_S_S64x128 main_c_10
  let main_v29 : IVec S64x128 1 := cmpi .slt main_arg1 main_v28
  let main_c_11 : IVec S_ 1 := constantI S_ 1 1#1
  let main_v30 : IVec S_ 1 := (fun x v => Host.reduce IntOp.andi x v reducesTo_S64x128_S_d0_1 h_S_) main_v29 main_c_11
  let main_v31 : IVec S_ 1 := andi main_v27 main_v30
  let main_c_12 : IVec S_ 32 := constantI S_ 32 0#32
  let main_v32 : IVec S128x4 32 := broadcastInDim S128x4 ![] bcast_S_S128x4 main_c_12
  fn_part2 (F := F) main_arg3 main_v31 main_v32

def fn {F : FTy → Type} [FloatOps F] (main_arg0 : FVec F S64x512x768 .f32) (main_arg1 : IVec S64x128 32) (main_arg2 : FVec F S64x128 .f32) (main_arg3 : IVec S128x4 32) (main_arg4 : FVec F S5x768 .f32) (main_arg5 : FVec F S1x768 .f32) (main_arg6 : FVec F S768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S5x768 .f32 := Host.absf main_arg4
  let main_cst_2 : FVec F S_ .f32 := constant S_ .f32 0x7F800000#32
  let main_v10 : FVec F S5x768 .f32 := broadcastInDim S5x768 ![] bcast_S_S5x768 main_cst_2
  let main_v11 : IVec S5x768 1 := cmpf .olt main_v9 main_v10
  let main_c_3 : IVec S_ 1 := constantI S_ 1 1#1
  let main_v12 : IVec S_ 1 := (fun x v => Host.reduce IntOp.andi x v reducesTo_S5x768_S_d0_1 h_S_) main_v11 main_c_3
  let main_v13 : IVec S_ 1 := andi main_v8 main_v12
  let main_v14 : FVec F S1x768 .f32 := Host.absf main_arg5
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg1 main_arg3 main_arg6 main_v13 main_v16
-- ==== Kernel.lean ====
abbrev S64x512x768 : Shape := ⟨3, ![64, 512, 768]⟩
abbrev S64x128 : Shape := ⟨2, ![64, 128]⟩
abbrev S128x4 : Shape := ⟨2, ![128, 4]⟩
abbrev S5x768 : Shape := ⟨2, ![5, 768]⟩
abbrev S1x768 : Shape := ⟨2, ![1, 768]⟩
abbrev S768 : Shape := ⟨1, ![768]⟩
abbrev S512 : Shape := ⟨1, ![512]⟩
abbrev S512x1x1 : Shape := ⟨3, ![512, 1, 1]⟩
abbrev S1x128x4 : Shape := ⟨3, ![1, 128, 4]⟩
abbrev S512x128x4 : Shape := ⟨3, ![512, 128, 4]⟩
abbrev S_ : Shape := ⟨0, ![]⟩
abbrev S512x128 : Shape := ⟨2, ![512, 128]⟩
abbrev S128x512 : Shape := ⟨2, ![128, 512]⟩
abbrev S64x128x1 : Shape := ⟨3, ![64, 128, 1]⟩
abbrev S64x128x768 : Shape := ⟨3, ![64, 128, 768]⟩
abbrev S4x512x768 : Shape := ⟨3, ![4, 512, 768]⟩
abbrev S4x128x1 : Shape := ⟨3, ![4, 128, 1]⟩
abbrev S4x128x768 : Shape := ⟨3, ![4, 128, 768]⟩
abbrev S128x5 : Shape := ⟨2, ![128, 5]⟩
abbrev S1x128x1 : Shape := ⟨3, ![1, 128, 1]⟩
abbrev S128x1 : Shape := ⟨2, ![128, 1]⟩
abbrev S128x768 : Shape := ⟨2, ![128, 768]⟩
abbrev S512x768 : Shape := ⟨2, ![512, 768]⟩
abbrev S1x512x768 : Shape := ⟨3, ![1, 512, 768]⟩
abbrev S1x128x768 : Shape := ⟨3, ![1, 128, 768]⟩

abbrev nBuf : Space → Nat
  | .hbm => 24
  | .vmem => 15
  | .smem => 0
  | _ => 0

abbrev bufTy : (tb : Table) → Fin (tcTables nBuf tb) → BufTy
  | .hbm, ⟨0, _⟩ => ⟨S64x512x768, .f32⟩
  | .hbm, ⟨1, _⟩ => ⟨S64x128, .i32⟩
  | .hbm, ⟨2, _⟩ => ⟨S64x128, .f32⟩
  | .hbm, ⟨3, _⟩ => ⟨S128x4, .i32⟩
  | .hbm, ⟨4, _⟩ => ⟨S5x768, .f32⟩
  | .hbm, ⟨5, _⟩ => ⟨S1x768, .f32⟩
  | .hbm, ⟨6, _⟩ => ⟨S768, .f32⟩
  | .hbm, ⟨7, _⟩ => ⟨S512, .i32⟩
  | .hbm, ⟨8, _⟩ => ⟨S512x1x1, .i32⟩
  | .hbm, ⟨9, _⟩ => ⟨S1x128x4, .i32⟩
  | .hbm, ⟨10, _⟩ => ⟨S512x128x4, .i32⟩
  | .hbm, ⟨11, _⟩ => ⟨S512x128x4, .i32⟩
  | .hbm, ⟨12, _⟩ => ⟨S512x128x4, .i1⟩
  | .hbm, ⟨13, _⟩ => ⟨S512x128x4, .i32⟩
  | .hbm, ⟨14, _⟩ => ⟨S_, .i32⟩
  | .hbm, ⟨15, _⟩ => ⟨S512x128, .i32⟩
  | .hbm, ⟨16, _⟩ => ⟨S512x128, .bf16⟩
  | .hbm, ⟨17, _⟩ => ⟨S128x512, .i32⟩
  | .hbm, ⟨18, _⟩ => ⟨S128x512, .bf16⟩
  | .hbm, ⟨19, _⟩ => ⟨S64x128x1, .i32⟩
  | .hbm, ⟨20, _⟩ => ⟨S64x128x1, .f32⟩
  | .hbm, ⟨21, _⟩ => ⟨S1x768, .f32⟩
  | .hbm, ⟨22, _⟩ => ⟨S64x512x768, .f32⟩
  | .hbm, ⟨23, _⟩ => ⟨S64x128x768, .f32⟩
  | .local _ .vmem, ⟨0, _⟩ => ⟨S4x512x768, .f32⟩
  | .local _ .vmem, ⟨1, _⟩ => ⟨S4x512x768, .f32⟩
  | .local _ .vmem, ⟨2, _⟩ => ⟨S4x128x1, .i32⟩
  | .local _ .vmem, ⟨3, _⟩ => ⟨S4x128x1, .i32⟩
  | .local _ .vmem, ⟨4, _⟩ => ⟨S4x128x1, .f32⟩
  | .local _ .vmem, ⟨5, _⟩ => ⟨S4x128x1, .f32⟩
  | .local _ .vmem, ⟨6, _⟩ => ⟨S5x768, .f32⟩
  | .local _ .vmem, ⟨7, _⟩ => ⟨S1x768, .f32⟩
  | .local _ .vmem, ⟨8, _⟩ => ⟨S1x768, .f32⟩
  | .local _ .vmem, ⟨9, _⟩ => ⟨S512x128, .bf16⟩
  | .local _ .vmem, ⟨10, _⟩ => ⟨S128x512, .bf16⟩
  | .local _ .vmem, ⟨11, _⟩ => ⟨S4x512x768, .f32⟩
  | .local _ .vmem, ⟨12, _⟩ => ⟨S4x512x768, .f32⟩
  | .local _ .vmem, ⟨13, _⟩ => ⟨S4x128x768, .f32⟩
  | .local _ .vmem, ⟨14, _⟩ => ⟨S4x128x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c : Ref sig .tc := ⟨.hbm, 14, rfl⟩
abbrev main_call0_v7 : Ref sig .tc := ⟨.hbm, 15, rfl⟩
abbrev main_v0_0 : Ref sig .tc := ⟨.hbm, 16, rfl⟩
abbrev main_call0_v9 : Ref sig .tc := ⟨.hbm, 17, rfl⟩
abbrev main_v0_1 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S512_S512x1x1_0 : S512.BroadcastsInDim S512x1x1 (![0] : Fin 1 → Fin S512x1x1.rank)
  bcast_S128x4_S1x128x4_1_2 : S128x4.BroadcastsInDim S1x128x4 (![1, 2] : Fin 2 → Fin S1x128x4.rank)
  bcast_S1x128x4_S512x128x4_0_1_2 : S1x128x4.BroadcastsInDim S512x128x4 (![0, 1, 2] : Fin 3 → Fin S512x128x4.rank)
  bcast_S512x1x1_S512x128x4_0_1_2 : S512x1x1.BroadcastsInDim S512x128x4 (![0, 1, 2] : Fin 3 → Fin S512x128x4.rank)
  natLt_1_32 : 1 < 32
  reducesTo_S512x128x4_S512x128_d2 : S512x128x4.ReducesTo [2] S512x128
  h_S_ : 0 < S_.numel
  transposes_S512x128_S128x512_1_0 : S512x128.Transposes [1, 0] S128x512
  bcast_S64x128_S64x128x1_0_1 : S64x128.BroadcastsInDim S64x128x1 (![0, 1] : Fin 2 → Fin S64x128x1.rank)
  shapeCasts_S768_S1x768 : S768.ShapeCasts S1x768
  inb_S5x768_S5x768_0_0 : ∀ a, (![0, 0] : Fin 2 → Nat) a + S5x768.size a ≤ S5x768.size a
  h_S5x768 : 0 < S5x768.numel
  bitsLt_bf16_f32 : FTy.bits .bf16 < FTy.bits .f32
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  iota_S128x5_d1_w32 : S128x5.Iotas .tc 32 [1]
  inb_S4x128x1_S1x128x1_0_0_0 : ∀ a, (![0, 0, 0] : Fin 3 → Nat) a + S1x128x1.size a ≤ S4x128x1.size a
  h_S1x128x1 : 0 < S1x128x1.numel
  shapeCasts_S1x128x1_S128x1 : S1x128x1.ShapeCasts S128x1
  broadcasts_S128x1_S128x5 : S128x1.Broadcasts S128x5
  broadcasts_S128x1_S128x768 : S128x1.Broadcasts S128x768
  broadcasts_S1x768_S128x768 : S1x768.Broadcasts S128x768
  inb_S4x512x768_S1x512x768_0_0_0 : ∀ a, (![0, 0, 0] : Fin 3 → Nat) a + S1x512x768.size a ≤ S4x512x768.size a
  h_S1x512x768 : 0 < S1x512x768.numel
  shapeCasts_S1x512x768_S512x768 : S1x512x768.ShapeCasts S512x768
  shapeCasts_S512x768_S1x512x768 : S512x768.ShapeCasts S1x512x768
  inb_S4x128x768_S1x128x768_0_0_0 : ∀ a, (![0, 0, 0] : Fin 3 → Nat) a + S1x128x768.size a ≤ S4x128x768.size a
  h_S1x128x768 : 0 < S1x128x768.numel
  shapeCasts_S1x128x768_S128x768 : S1x128x768.ShapeCasts S128x768
  shapeCasts_S128x768_S1x128x768 : S128x768.ShapeCasts S1x128x768
  inb_S4x128x1_S1x128x1_1_0_0 : ∀ a, (![1, 0, 0] : Fin 3 → Nat) a + S1x128x1.size a ≤ S4x128x1.size a
  inb_S4x512x768_S1x512x768_1_0_0 : ∀ a, (![1, 0, 0] : Fin 3 → Nat) a + S1x512x768.size a ≤ S4x512x768.size a
  inb_S4x128x768_S1x128x768_1_0_0 : ∀ a, (![1, 0, 0] : Fin 3 → Nat) a + S1x128x768.size a ≤ S4x128x768.size a
  inb_S4x128x1_S1x128x1_2_0_0 : ∀ a, (![2, 0, 0] : Fin 3 → Nat) a + S1x128x1.size a ≤ S4x128x1.size a
  inb_S4x512x768_S1x512x768_2_0_0 : ∀ a, (![2, 0, 0] : Fin 3 → Nat) a + S1x512x768.size a ≤ S4x512x768.size a
  inb_S4x128x768_S1x128x768_2_0_0 : ∀ a, (![2, 0, 0] : Fin 3 → Nat) a + S1x128x768.size a ≤ S4x128x768.size a
  inb_S4x128x1_S1x128x1_3_0_0 : ∀ a, (![3, 0, 0] : Fin 3 → Nat) a + S1x128x1.size a ≤ S4x128x1.size a
  inb_S4x512x768_S1x512x768_3_0_0 : ∀ a, (![3, 0, 0] : Fin 3 → Nat) a + S1x512x768.size a ≤ S4x512x768.size a
  inb_S4x128x768_S1x128x768_3_0_0 : ∀ a, (![3, 0, 0] : Fin 3 → Nat) a + S1x128x768.size a ≤ S4x128x768.size a
  dot_S128x5_S5x768_S128x768_1_0_0_1_n_n_wf : DotDims.WF S128x5 S5x768 S128x768 [1] [0] [0] [1] [] []
  dot_S512x128_S128x768_S512x768_1_0_0_1_n_n_wf : DotDims.WF S512x128 S128x768 S512x768 [1] [0] [0] [1] [] []
  dot_S128x512_S512x768_S128x768_1_0_0_1_n_n_wf : DotDims.WF S128x512 S512x768 S128x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S64x512x768.size a
  hwx0_0 : ∀ i : grid0.Coords, EltTy.bits .f32 = 32 ∨ (Rect.block (s := S64x512x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x1.size a ≤ S64x128x1.size a
  hwx0_1 : ∀ i : grid0.Coords, EltTy.bits .i32 = 32 ∨ (Rect.block (s := S64x128x1) S4x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x1.size a ≤ S64x128x1.size a
  hwx0_2 : ∀ i : grid0.Coords, EltTy.bits .f32 = 32 ∨ (Rect.block (s := S64x128x1) S4x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x768.size a ≤ S5x768.size a
  hwx0_3 : ∀ i : grid0.Coords, EltTy.bits .f32 = 32 ∨ (Rect.block (s := S5x768) S5x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .bf16 = 32 ∨ (Rect.block (s := S128x512) S128x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x512x768.size a ≤ S64x512x768.size a
  hwx0_8 : ∀ i : grid0.Coords, EltTy.bits .f32 = 32 ∨ (Rect.block (s := S64x512x768) S4x512x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x128x768.size a ≤ S64x128x768.size a
  hwx0_9 : ∀ i : grid0.Coords, EltTy.bits .f32 = 32 ∨ (Rect.block (s := S64x128x768) S4x128x768.size (cc0_transform_9 i) (hinb0_9 i)).WholeWords (EltTy.packing .f32)

variable [Facts₀]

def dot_S128x5_S5x768_S128x768_1_0_0_1_n_n : DotDims S128x5 S5x768 S128x768 where
  lhsContracting := [1]
  rhsContracting := [0]
  lhsNonContracting := [0]
  rhsNonContracting := [1]
  lhsBatch := []
  rhsBatch := []
  wf := dot_S128x5_S5x768_S128x768_1_0_0_1_n_n_wf
def dot_S512x128_S128x768_S512x768_1_0_0_1_n_n : DotDims S512x128 S128x768 S512x768 where
  lhsContracting := [1]
  rhsContracting := [0]
  lhsNonContracting := [0]
  rhsNonContracting := [1]
  lhsBatch := []
  rhsBatch := []
  wf := dot_S512x128_S128x768_S512x768_1_0_0_1_n_n_wf
def dot_S128x512_S512x768_S128x768_1_0_0_1_n_n : DotDims S128x512 S512x768 S128x768 where
  lhsContracting := [1]
  rhsContracting := [0]
  lhsNonContracting := [0]
  rhsNonContracting := [1]
  lhsBatch := []
  rhsBatch := []
  wf := dot_S128x512_S512x768_S128x768_1_0_0_1_n_n_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S5x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S4x512x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S4x128x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x128 : Shape := ⟨2, ![64, 128]⟩
abbrev S128x4 : Shape := ⟨2, ![128, 4]⟩
abbrev S5x768 : Shape := ⟨2, ![5, 768]⟩
abbrev S1x768 : Shape := ⟨2, ![1, 768]⟩
abbrev S768 : Shape := ⟨1, ![768]⟩
abbrev S_ : Shape := ⟨0, ![]⟩
abbrev S64x128x1 : Shape := ⟨3, ![64, 128, 1]⟩
abbrev S64x128x768 : Shape := ⟨3, ![64, 128, 768]⟩
abbrev S1x1x768 : Shape := ⟨3, ![1, 1, 768]⟩
abbrev S512 : Shape := ⟨1, ![512]⟩
abbrev S64x128x4x768 : Shape := ⟨4, ![64, 128, 4, 768]⟩
abbrev S512x1 : Shape := ⟨2, ![512, 1]⟩
abbrev S128x4x1 : Shape := ⟨3, ![128, 4, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x128, .i32⟩
  | .hbm, ⟨2, _⟩ => ⟨S64x128, .f32⟩
  | .hbm, ⟨3, _⟩ => ⟨S128x4, .i32⟩
  | .hbm, ⟨4, _⟩ => ⟨S5x768, .f32⟩
  | .hbm, ⟨5, _⟩ => ⟨S1x768, .f32⟩
  | .hbm, ⟨6, _⟩ => ⟨S768, .f32⟩
  | .hbm, ⟨7, _⟩ => ⟨S_, .i32⟩
  | .hbm, ⟨8, _⟩ => ⟨S64x128, .i32⟩
  | .hbm, ⟨9, _⟩ => ⟨S64x128, .i1⟩
  | .hbm, ⟨10, _⟩ => ⟨S_, .i32⟩
  | .hbm, ⟨11, _⟩ => ⟨S64x128, .i32⟩
  | .hbm, ⟨12, _⟩ => ⟨S64x128, .i32⟩
  | .hbm, ⟨13, _⟩ => ⟨S64x128, .i32⟩
  | .hbm, ⟨14, _⟩ => ⟨S64x128x1, .i32⟩
  | .hbm, ⟨15, _⟩ => ⟨S64x128x768, .f32⟩
  | .hbm, ⟨16, _⟩ => ⟨S64x128x1, .f32⟩
  | .hbm, ⟨17, _⟩ => ⟨S768, .f32⟩
  | .hbm, ⟨18, _⟩ => ⟨S1x1x768, .f32⟩
  | .hbm, ⟨19, _⟩ => ⟨S64x128x768, .f32⟩
  | .hbm, ⟨20, _⟩ => ⟨S64x128x768, .f32⟩
  | .hbm, ⟨21, _⟩ => ⟨S64x128x768, .f32⟩
  | .hbm, ⟨22, _⟩ => ⟨S1x1x768, .f32⟩
  | .hbm, ⟨23, _⟩ => ⟨S64x128x768, .f32⟩
  | .hbm, ⟨24, _⟩ => ⟨S64x128x768, .f32⟩
  | .hbm, ⟨25, _⟩ => ⟨S64x128x768, .f32⟩
  | .hbm, ⟨26, _⟩ => ⟨S512, .i32⟩
  | .hbm, ⟨27, _⟩ => ⟨S64x128x4x768, .f32⟩
  | .hbm, ⟨28, _⟩ => ⟨S64x512x768, .f32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S512x1, .i32⟩
  | .hbm, ⟨37, _⟩ => ⟨S64x512x768, .f32⟩
  | .hbm, ⟨38, _⟩ => ⟨S_, .i32⟩
  | .hbm, ⟨39, _⟩ => ⟨S128x4, .i32⟩
  | .hbm, ⟨40, _⟩ => ⟨S128x4, .i1⟩
  | .hbm, ⟨41, _⟩ => ⟨S_, .i32⟩
  | .hbm, ⟨42, _⟩ => ⟨S128x4, .i32⟩
  | .hbm, ⟨43, _⟩ => ⟨S128x4, .i32⟩
  | .hbm, ⟨44, _⟩ => ⟨S128x4, .i32⟩
  | .hbm, ⟨45, _⟩ => ⟨S128x4x1, .i32⟩
  | .hbm, ⟨46, _⟩ => ⟨S64x128x4x768, .f32⟩
  | .hbm, ⟨47, _⟩ => ⟨S_, .f32⟩
  | .hbm, ⟨48, _⟩ => ⟨S64x128x768, .f32⟩
  | .hbm, ⟨49, _⟩ => ⟨S_, .f32⟩
  | .hbm, ⟨50, _⟩ => ⟨S64x128x768, .f32⟩
  | .hbm, ⟨51, _⟩ => ⟨S64x128x768, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  shapeCasts_S1x768_S768 : S1x768.ShapeCasts S768
  bcast_S768_S1x1x768_2 : S768.BroadcastsInDim S1x1x768 (![2] : Fin 1 → Fin S1x1x768.rank)
  bcast_S64x128x1_S64x128x768_0_1_2 : S64x128x1.BroadcastsInDim S64x128x768 (![0, 1, 2] : Fin 3 → Fin S64x128x768.rank)
  bcast_S1x1x768_S64x128x768_0_1_2 : S1x1x768.BroadcastsInDim S64x128x768 (![0, 1, 2] : Fin 3 → Fin S64x128x768.rank)
  shapeCasts_S128x4_S512 : S128x4.ShapeCasts S512
  bcast_S64x128x768_S64x128x4x768_0_1_3 : S64x128x768.BroadcastsInDim S64x128x4x768 (![0, 1, 3] : Fin 3 → Fin S64x128x4x768.rank)
  shapeCasts_S64x128x4x768_S64x512x768 : S64x128x4x768.ShapeCasts S64x512x768
  bcast_S_S512 : S_.BroadcastsInDim S512 (![] : Fin 0 → Fin S512.rank)
  bcast_S512_S512x1_0 : S512.BroadcastsInDim S512x1 (![0] : Fin 1 → Fin S512x1.rank)
  bcast_S_S128x4 : S_.BroadcastsInDim S128x4 (![] : Fin 0 → Fin S128x4.rank)
  bcast_S128x4_S128x4x1_0_1 : S128x4.BroadcastsInDim S128x4x1 (![0, 1] : Fin 2 → Fin S128x4x1.rank)
  reducesTo_S64x128x4x768_S64x128x768_d2 : S64x128x4x768.ReducesTo [2] S64x128x768
  h_S_ : 0 < S_.numel
  bcast_S_S64x128x768 : S_.BroadcastsInDim S64x128x768 (![] : Fin 0 → Fin S64x128x768.rank)
  gather_S5x768_S64x128x1_S64x128x768_2_0_n_n_0_2_1768_wf : GatherDims.WF S5x768 S64x128x1 S64x128x768 [2] [0] [] [0] [] 2 ![1, 768]
  scatter_S64x512x768_S512x1_S64x512x768_02_1_1_1_wf : ScatterDims.WF S64x512x768 S512x1 S64x512x768 [0, 2] [1] [1] 1
  gather_S64x512x768_S128x4x1_S64x128x4x768_03_1_n_n_1_2_641768_wf : GatherDims.WF S64x512x768 S128x4x1 S64x128x4x768 [0, 3] [1] [] [1] [] 2 ![64, 1, 768]

variable [Facts₀]

def gather_S5x768_S64x128x1_S64x128x768_2_0_n_n_0_2_1768 : GatherDims S5x768 S64x128x1 S64x128x768 where
  offsetDims := [2]
  collapsedSliceDims := [0]
  operandBatchingDims := []
  startIndicesBatchingDims := []
  startIndexMap := [0]
  indexVectorDim := 2
  sliceSizes := ![1, 768]
  wf := gather_S5x768_S64x128x1_S64x128x768_2_0_n_n_0_2_1768_wf
def scatter_S64x512x768_S512x1_S64x512x768_02_1_1_1 : ScatterDims S64x512x768 S512x1 S64x512x768 where
  updateWindowDims := [0, 2]
  insertedWindowDims := [1]
  scatterDimsToOperandDims := [1]
  indexVectorDim := 1
  wf := scatter_S64x512x768_S512x1_S64x512x768_02_1_1_1_wf
def gather_S64x512x768_S128x4x1_S64x128x4x768_03_1_n_n_1_2_641768 : GatherDims S64x512x768 S128x4x1 S64x128x4x768 where
  offsetDims := [0, 3]
  collapsedSliceDims := [1]
  operandBatchingDims := []
  startIndicesBatchingDims := []
  startIndexMap := [1]
  indexVectorDim := 2
  sliceSizes := ![64, 1, 768]
  wf := gather_S64x512x768_S128x4x1_S64x128x4x768_03_1_n_n_1_2_641768_wf

class Facts : Prop extends Facts₀ where

variable [Facts]
-- ==== Proof.Spec.lean ====
/-
  What both programs compute, over the reals.

  Each of 64 batch rows has 512 token positions with a hidden state of 768 columns, and 128 entities. An entity has a
  type (a row of a 5-row table), a confidence, and four token positions. Its embedding is its type's table row plus
  confidence times a weight row plus a bias. The ENHANCED hidden state at a position is the hidden state plus the
  embedding of every entity, once for each of the entity's four tokens that sits at that position. The POOLED
  embedding of an entity is the mean of the enhanced states at its four tokens; written with the same multiplicities,
  the sum over all positions of (how many of the entity's tokens sit there) times the enhanced state, over four.

  The inputs are extended reals; the functions below read them through `EReal.toReal`, and `Dom` says that they are
  real (so nothing is lost) and that the integer arrays hold exactly the type and token numbers.
-/
import Idealize.ShloMosaic.PureOps.Ideal
import Idealize.ShloMosaic.Lib.ValueIdx

noncomputable section

open scoped BigOperators

namespace Cert.EntityPool

open Idealize.ShloMosaic Idealize.ShloMosaic.ValueIdx

abbrev SHid : Shape := ⟨3, ![64, 512, 768]⟩
abbrev SEnt : Shape := ⟨3, ![64, 128, 768]⟩
abbrev SBE : Shape := ⟨2, ![64, 128]⟩
abbrev STok : Shape := ⟨2, ![128, 4]⟩
abbrev STab : Shape := ⟨2, ![5, 768]⟩
abbrev SRow : Shape := ⟨2, ![1, 768]⟩
abbrev SVec : Shape := ⟨1, ![768]⟩

/-- The float inputs as extended reals (hidden states, confidences, type table, weight row, bias), each entity's type
    as a row number of the table, and each entity's four tokens as positions. -/
structure Inputs where
  hid : FVec Ideal SHid .f32
  ec : FVec Ideal SBE .f32
  tt : FVec Ideal STab .f32
  cw : FVec Ideal SRow .f32
  cb : FVec Ideal SVec .f32
  ty : Fin 64 → Fin 128 → Fin 5
  tok : Fin 128 → Fin 4 → Fin 512

namespace Inputs

variable (I : Inputs)

/-- How many of entity `e`'s four tokens sit at position `s`. -/
def cnt (s : Fin 512) (e : Fin 128) : ℕ := (Finset.univ.filter fun t : Fin 4 => I.tok e t = s).card

/-- Entity `e` of batch row `b` at column `h`: its type's table row, plus confidence times weight plus bias. -/
def emb (b : Fin 64) (e : Fin 128) (h : Fin 768) : ℝ :=
  (I.tt (ix2 (I.ty b e) h)).toReal + ((I.ec (ix2 b e)).toReal * (I.cw (ix2 0 h)).toReal + (I.cb (ix1 h)).toReal)

/-- The enhanced hidden state: the hidden state plus every entity's embedding, once per token of it at `s`. -/
def enh (b : Fin 64) (s : Fin 512) (h : Fin 768) : ℝ :=
  (I.hid (ix3 b s h)).toReal + ∑ e : Fin 128, (I.cnt s e : ℝ) * I.emb b e h

/-- The pooled entity embedding: the enhanced states at the entity's tokens, counted with multiplicity, over four. -/
def pool (b : Fin 64) (e : Fin 128) (h : Fin 768) : ℝ :=
  (∑ s : Fin 512, (I.cnt s e : ℝ) * I.enh b s h) / 4

/-- The first result, [64, 512, 768]. -/
def G0 : FVec Ideal SHid .f32 := fun i => ((I.enh (i 0) (i 1) (i 2) : ℝ) : EReal)

/-- The second result, [64, 128, 768]. -/
def G1 : FVec Ideal SEnt .f32 := fun i => ((I.pool (i 0) (i 1) (i 2) : ℝ) : EReal)

theorem G0_apply (b : Fin 64) (s : Fin 512) (h : Fin 768) : I.G0 (ix3 b s h) = ((I.enh b s h : ℝ) : EReal) := rfl

theorem G1_apply (b : Fin 64) (e : Fin 128) (h : Fin 768) : I.G1 (ix3 b e h) = ((I.pool b e h : ℝ) : EReal) := rfl

/-- A sum weighted by the multiplicities is the sum over (entity, token) pairs whose token sits at `s`. -/
theorem sum_cnt_mul (s : Fin 512) (f : Fin 128 → ℝ) :
    ∑ e : Fin 128, (I.cnt s e : ℝ) * f e = ∑ e : Fin 128, ∑ t : Fin 4, if I.tok e t = s then f e else 0 := by
  refine Finset.sum_congr rfl fun e _ => ?_
  unfold cnt
  rw [Finset.card_eq_sum_ones, Nat.cast_sum, Finset.sum_mul, Finset.sum_filter]
  refine Finset.sum_congr rfl fun t _ => ?_
  split <;> simp

/-- Over positions: the multiplicity-weighted sum of `g` is the sum of `g` at the entity's four tokens. -/
theorem sum_cnt_mul_pos (e : Fin 128) (g : Fin 512 → ℝ) :
    ∑ s : Fin 512, (I.cnt s e : ℝ) * g s = ∑ t : Fin 4, g (I.tok e t) := by
  have h1 : ∀ s : Fin 512, (I.cnt s e : ℝ) * g s = ∑ t : Fin 4, if I.tok e t = s then g s else 0 := by
    intro s
    unfold cnt
    rw [Finset.card_eq_sum_ones, Nat.cast_sum, Finset.sum_mul, Finset.sum_filter]
    refine Finset.sum_congr rfl fun t _ => ?_
    split <;> simp
  rw [Finset.sum_congr rfl fun s _ => h1 s, Finset.sum_comm]
  refine Finset.sum_congr rfl fun t _ => ?_
  rw [Finset.sum_eq_single (I.tok e t)]
  · simp
  · intro s _ hs
    rw [if_neg (fun h => hs h.symm)]
  · intro h
    exact absurd (Finset.mem_univ _) h

end Inputs

/-- What the precondition says of the arrays as launched: every float entry is a real number, and the integer arrays
    `et` (types) and `tk` (tokens) hold exactly the numbers `ty` and `tok`, as 32-bit words. -/
structure Dom (I : Inputs) (et : IVec SBE 32) (tk : IVec STok 32) : Prop where
  hid_fin : ∀ i, I.hid i = ((I.hid i).toReal : EReal)
  ec_fin : ∀ i, I.ec i = ((I.ec i).toReal : EReal)
  tt_fin : ∀ i, I.tt i = ((I.tt i).toReal : EReal)
  cw_fin : ∀ i, I.cw i = ((I.cw i).toReal : EReal)
  cb_fin : ∀ i, I.cb i = ((I.cb i).toReal : EReal)
  ty_eq : ∀ b e, et (ix2 b e) = BitVec.ofNat 32 (I.ty b e).val
  tok_eq : ∀ e t, tk (ix2 e t) = BitVec.ofNat 32 (I.tok e t).val

end Cert.EntityPool

end
-- ==== Proof.Pre.lean ====
/-
  What the precondition says: every float entry is a real number, every entity type is one of 0 … 4 and every token
  position one of 0 … 511. Decoded, the integer arrays are exactly two functions into `Fin 5` and `Fin 512`.

  The printed precondition is a conjunction of nine tests, each "every entry of an array passes": for the five float
  arrays |x| < +∞, for the two integer arrays 0 ≤ x and x < n read signed. A conjunction that is 1 has every conjunct
  1; a test over all entries that is 1 holds at each entry. An extended real with max(x, −x) < ⊤ is neither ⊤ nor ⊥,
  so it is the real `x.toReal`. A 32-bit word with 0 ≤ x < n signed (n below 2³¹) has its top bit clear, so its
  unsigned value is below n, and that value written back as a word is the word.
-/
import proofs.«414526_j26903675142736_3_alg».proof.Pre_finite_inputs
import proofs.«414526_j26903675142736_3_alg».proof.Proof.Spec
import Idealize.ShloMosaic.Lib.ReduceAll

noncomputable section

namespace Cert.EntityPool

open Idealize.ShloMosaic Idealize.ShloMosaic.ValueIdx

/-- The scalar shape has one index. -/
instance : Subsingleton (⟨0, ![]⟩ : Shape).Idx := ⟨fun a b => funext fun d => d.elim0⟩

/-! ## One entry -/

/-- A truth value written as a one-bit word is 1 only when it is true. -/
theorem eq_true_of_ofBool {b : Bool} (h : BitVec.ofBool b = 1#1) : b = true := by
  cases b
  · exact absurd h (by decide)
  · rfl

/-- An extended real whose absolute value max(x, −x) is below ⊤ is a real number. -/
theorem real_of_abs_lt_top (x : EReal) (h : max x (-x) < ⊤) : x = ((x.toReal : ℝ) : EReal) := by
  induction x using EReal.rec with
  | bot => simp at h
  | coe r => rfl
  | top => simp at h

/-- The float test at one entry: |x| < +∞, the bound being the pattern 0x7F800000, says x is real. -/
theorem real_of_test (x : Ideal .f32)
    (h : FloatOps.cmpf (F := Ideal) .olt (FloatOps.hostAbsf x) (FloatOps.ofBits .f32 0x7F800000#32) = 1#1) :
    x = ((x.toReal : ℝ) : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  exact real_of_abs_lt_top x (of_decide_eq_true (eq_true_of_ofBool h'))

/-- A word with 0 ≤ w < c signed, where c reads n: its unsigned value is below n, and is the word. -/
theorem word_of_bounds (w c : BitVec 32) (n : Nat) (hc : c.toInt = n) (h0 : (0#32 : BitVec 32).toInt ≤ w.toInt)
    (h1 : w.toInt < c.toInt) : w.toNat < n ∧ w = BitVec.ofNat 32 w.toNat := by
  have hz : (0#32 : BitVec 32).toInt = 0 := by decide
  rw [hz] at h0
  rw [hc] at h1
  have hw := BitVec.toInt_eq_toNat_cond w
  have hlt := w.isLt
  split at hw
  · refine ⟨by omega, ?_⟩
    apply BitVec.eq_of_toNat_eq
    rw [BitVec.toNat_ofNat]
    exact (Nat.mod_eq_of_lt hlt).symm
  · omega

/-! ## One test over a whole array -/

section All
variable {s : Shape} {axes : List (Fin s.rank)}

/-- "Every entry has |x| < +∞" came out 1: every entry is real. -/
theorem all_real (x : FVec Ideal s .f32) (hb : (⟨0, ![]⟩ : Shape).BroadcastsInDim s (![] : Fin 0 → Fin s.rank))
    (hr : s.ReducesTo axes ⟨0, ![]⟩) (h0 : 0 < (⟨0, ![]⟩ : Shape).numel)
    (h : Host.reduce IntOp.andi (cmpf .olt (Host.absf x) (broadcastInDim s ![] hb (constant ⟨0, ![]⟩ .f32 0x7F800000#32)))
      (constantI ⟨0, ![]⟩ 1 1#1) hr h0 ix0 = 1#1) (i : s.Idx) : x i = (((x i).toReal : ℝ) : EReal) :=
  real_of_test (x i) (Host.reduce_andi_all _ _ hr h0 ix0 h i)

/-- "Every entry is at least c, signed" came out 1. -/
theorem all_sge (x : IVec s 32) (c : BitVec 32) (hb : (⟨0, ![]⟩ : Shape).BroadcastsInDim s (![] : Fin 0 → Fin s.rank))
    (hr : s.ReducesTo axes ⟨0, ![]⟩) (h0 : 0 < (⟨0, ![]⟩ : Shape).numel)
    (h : Host.reduce IntOp.andi (cmpi .sge x (broadcastInDim s ![] hb (constantI ⟨0, ![]⟩ 32 c)))
      (constantI ⟨0, ![]⟩ 1 1#1) hr h0 ix0 = 1#1) (i : s.Idx) : c.toInt ≤ (x i).toInt :=
  IntOp.cmpi_sge.1 (Host.reduce_andi_all _ _ hr h0 ix0 h i)

/-- "Every entry is below c, signed" came out 1. -/
theorem all_slt (x : IVec s 32) (c : BitVec 32) (hb : (⟨0, ![]⟩ : Shape).BroadcastsInDim s (![] : Fin 0 → Fin s.rank))
    (hr : s.ReducesTo axes ⟨0, ![]⟩) (h0 : 0 < (⟨0, ![]⟩ : Shape).numel)
    (h : Host.reduce IntOp.andi (cmpi .slt x (broadcastInDim s ![] hb (constantI ⟨0, ![]⟩ 32 c)))
      (constantI ⟨0, ![]⟩ 1 1#1) hr h0 ix0 = 1#1) (i : s.Idx) : (x i).toInt < c.toInt :=
  IntOp.cmpi_slt.1 (Host.reduce_andi_all _ _ hr h0 ix0 h i)

end All

/-! ## The precondition -/

/-- From the printed precondition being all ones: the decoded type and token functions exist and `Dom` holds. -/
theorem dom_of_pre [Cert.Pre_finite_inputs.Facts] (hid : FVec Ideal SHid .f32) (et : IVec SBE 32) (ec : FVec Ideal SBE .f32)
    (tk : IVec STok 32) (tt : FVec Ideal STab .f32) (cw : FVec Ideal SRow .f32) (cb : FVec Ideal SVec .f32)
    (h : Cert.Pre_finite_inputs.fn (F := Ideal) hid et ec tk tt cw cb = fun _ => 1#1) :
    ∃ (ty : Fin 64 → Fin 128 → Fin 5) (tok : Fin 128 → Fin 4 → Fin 512),
      Dom ⟨hid, ec, tt, cw, cb, ty, tok⟩ et tk := by
  -- the one entry of the result, as the conjunction it is
  have e := congrFun h ix0
  dsimp only [Cert.Pre_finite_inputs.fn, Cert.Pre_finite_inputs.fn_part1, Cert.Pre_finite_inputs.fn_part2] at e
  obtain ⟨e, htk1⟩ := IntOp.andi_eq_one.1 e
  obtain ⟨e, htk0⟩ := IntOp.andi_eq_one.1 e
  obtain ⟨e, het1⟩ := IntOp.andi_eq_one.1 e
  obtain ⟨e, het0⟩ := IntOp.andi_eq_one.1 e
  obtain ⟨e, hcb⟩ := IntOp.andi_eq_one.1 e
  obtain ⟨e, hcw⟩ := IntOp.andi_eq_one.1 e
  obtain ⟨e, htt⟩ := IntOp.andi_eq_one.1 e
  obtain ⟨hhid, hec⟩ := IntOp.andi_eq_one.1 e
  -- the integer arrays: each word is in range, and is its own unsigned value
  have tyb : ∀ b e, (et (ix2 b e)).toNat < 5 ∧ et (ix2 b e) = BitVec.ofNat 32 (et (ix2 b e)).toNat := fun b e =>
    word_of_bounds _ 5#32 5 (by decide) (all_sge et 0#32 _ _ _ het0 (ix2 b e)) (all_slt et 5#32 _ _ _ het1 (ix2 b e))
  have tkb : ∀ e t, (tk (ix2 e t)).toNat < 512 ∧ tk (ix2 e t) = BitVec.ofNat 32 (tk (ix2 e t)).toNat := fun e t =>
    word_of_bounds _ 512#32 512 (by decide) (all_sge tk 0#32 _ _ _ htk0 (ix2 e t)) (all_slt tk 512#32 _ _ _ htk1 (ix2 e t))
  exact ⟨fun b e => ⟨(et (ix2 b e)).toNat, (tyb b e).1⟩, fun e t => ⟨(tk (ix2 e t)).toNat, (tkb e t).1⟩,
    ⟨all_real hid _ _ _ hhid, all_real ec _ _ _ hec, all_real tt _ _ _ htt, all_real cw _ _ _ hcw, all_real cb _ _ _ hcb,
      fun b e => (tyb b e).2, fun e t => (tkb e t).2⟩⟩

end Cert.EntityPool

end
-- ==== Proof.KBody.lean ====
/-
  One batch row of the kernel body, as three functions, and what each computes at an entry.

  The body handles four batch rows, one after the other, each the same way: from the row's entity types and
  confidences it forms the entity embeddings (a one-hot product with the type table, plus confidence times weight
  plus bias); it adds to the row's hidden states the product of the count matrix with the embeddings (computed as a
  product with the embeddings plus a product with the embeddings minus themselves); and it multiplies the transposed
  count matrix with that enhanced row (the same split) and by one quarter.
-/
import proofs.«414526_j26903675142736_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Idealize.ShloMosaic Idealize.ShloMosaic.ValueIdx
open Facts₀ Facts

variable {F : FTy → Type} [FloatOps F]

/-- The entity embeddings of one batch row, [128, 768]: one-hot of the types against the table, plus confidence times
    the weight row plus the bias row. -/
def embBlk (tt : FVec F S5x768 .bf16) (cw : Vec F S1x768 .f32) (cb : FVec F S1x768 .f32) (io : IVec S128x5 32)
    (et : Vec F S1x128x1 .i32) (ec : Vec F S1x128x1 .f32) : FVec F S128x768 .f32 :=
  addf
    (matmul dot_S128x5_S5x768_S128x768_1_0_0_1_n_n none
      (truncf .bf16 (sitofp .f32 (extui 32 (cmpi .eq
        (broadcastTo S128x5 (shapeCast S128x1 et shapeCasts_S1x128x1_S128x1) broadcasts_S128x1_S128x5) io) natLt_1_32))
        bitsLt_bf16_f32)
      tt (constant S128x768 .f32 0x00000000#32))
    (addf
      (mulf (broadcastTo S128x768 (shapeCast S128x1 ec shapeCasts_S1x128x1_S128x1) broadcasts_S128x1_S128x768)
        (broadcastTo S128x768 cw broadcasts_S1x768_S128x768))
      (broadcastTo S128x768 cb broadcasts_S1x768_S128x768))

/-- The count matrix times the embeddings, as the body computes it: the product with the embeddings plus the product
    with the embeddings minus themselves. -/
def scatBlk (M : FVec F S512x128 .bf16) (x : FVec F S128x768 .f32) : FVec F S512x768 .f32 :=
  addf
    (matmul dot_S512x128_S128x768_S512x768_1_0_0_1_n_n none M (truncf .bf16 x bitsLt_bf16_f32)
      (constant S512x768 .f32 0x00000000#32))
    (matmul dot_S512x128_S128x768_S512x768_1_0_0_1_n_n none M (truncf .bf16 (subf x x) bitsLt_bf16_f32)
      (constant S512x768 .f32 0x00000000#32))

/-- The enhanced row, [512, 768]: the row's hidden states plus the count matrix times the embeddings. -/
def enhBlk (M : FVec F S512x128 .bf16) (x : FVec F S128x768 .f32) (hid : Vec F S1x512x768 .f32) : FVec F S512x768 .f32 :=
  addf (shapeCast S512x768 hid shapeCasts_S1x512x768_S512x768) (scatBlk M x)

/-- The pooled row, [128, 768]: the transposed count matrix times the enhanced row (the same split), times a quarter. -/
def poolBlk (Mt : FVec F S128x512 .bf16) (y : FVec F S512x768 .f32) : FVec F S128x768 .f32 :=
  mulf
    (addf
      (matmul dot_S128x512_S512x768_S128x768_1_0_0_1_n_n none Mt (truncf .bf16 y bitsLt_bf16_f32)
        (constant S128x768 .f32 0x00000000#32))
      (matmul dot_S128x512_S512x768_S128x768_1_0_0_1_n_n none Mt (truncf .bf16 (subf y y) bitsLt_bf16_f32)
        (constant S128x768 .f32 0x00000000#32)))
    (broadcast S128x768 (Scalar.ofBits .f32 0x3E800000#32))

/-! ## Every store's payload is one of these, of its row's loads -/

section Payloads
variable (v0 : Vec F S5x768 .f32) (v2 : Vec F S1x768 .f32) (v3 : Vec F S1x768 .f32) (v5 : Vec F S512x128 .bf16)
  (tt : FVec F S5x768 .bf16) (cw : Vec F S1x768 .f32) (cb : FVec F S1x768 .f32) (M : FVec F S512x128 .bf16)
  (Mt : FVec F S128x512 .bf16) (io : IVec S128x5 32)
  (E : Vec F S1x128x1 .i32) (C : Vec F S1x128x1 .f32) (H : Vec F S1x512x768 .f32)

theorem enh_row0 : Gen.k0_pay9 (Gen.k0_pay8 v0 v2 v3 v5 E C H)
    = shapeCast S1x512x768 (enhBlk (Gen.k0_pay6 v5) (embBlk (Gen.k0_pay4 v0) v2 (Gen.k0_pay5 v3)
        (iota .tc S128x5 32 [1] iota_S128x5_d1_w32) E C) H) shapeCasts_S512x768_S1x512x768 := rfl

theorem enh_row1 : Gen.k0_pay13 (Gen.k0_pay11 tt cw cb M io E C) H
    = shapeCast S1x512x768 (enhBlk M (embBlk tt cw cb io E C) H) shapeCasts_S512x768_S1x512x768 := rfl

theorem enh_row2 : Gen.k0_pay19 (Gen.k0_pay16 tt cw cb M io E C) (Gen.k0_pay17 tt cw cb M io E C) H
    = shapeCast S1x512x768 (enhBlk M (embBlk tt cw cb io E C) H) shapeCasts_S512x768_S1x512x768 := rfl

theorem enh_row3 : Gen.k0_pay2 M (Gen.k0_pay22 tt cw cb io E C) (Gen.k0_pay23 tt cw cb io E C) H
    = shapeCast S1x512x768 (enhBlk M (embBlk tt cw cb io E C) H) shapeCasts_S512x768_S1x512x768 := rfl

theorem pool_row0 : Gen.k0_pay10 Mt (Gen.k0_pay8 v0 v2 v3 v5 E C H)
    = shapeCast S1x128x768 (poolBlk Mt (enhBlk (Gen.k0_pay6 v5) (embBlk (Gen.k0_pay4 v0) v2 (Gen.k0_pay5 v3)
        (iota .tc S128x5 32 [1] iota_S128x5_d1_w32) E C) H)) shapeCasts_S128x768_S1x128x768 := rfl

theorem pool_row1 : Gen.k0_pay14 Mt (Gen.k0_pay11 tt cw cb M io E C) H
    = shapeCast S1x128x768 (poolBlk Mt (enhBlk M (embBlk tt cw cb io E C) H)) shapeCasts_S128x768_S1x128x768 := rfl

theorem pool_row2 : Gen.k0_pay20 Mt (Gen.k0_pay16 tt cw cb M io E C) (Gen.k0_pay17 tt cw cb M io E C) H
    = shapeCast S1x128x768 (poolBlk Mt (enhBlk M (embBlk tt cw cb io E C) H)) shapeCasts_S128x768_S1x128x768 := rfl

theorem pool_row3 : Gen.k0_pay3 M Mt (Gen.k0_pay22 tt cw cb io E C) (Gen.k0_pay23 tt cw cb io E C) H
    = shapeCast S1x128x768 (poolBlk Mt (enhBlk M (embBlk tt cw cb io E C) H)) shapeCasts_S128x768_S1x128x768 := rfl

end Payloads

/-! ## At the ideal instance: a change of float format and a cast to the same shape are the identity -/

theorem pay4_apply (v : Vec Ideal S5x768 .f32) (i : S5x768.Idx) : Gen.k0_pay4 (F := Ideal) v i = v i := rfl

theorem pay5_eq (v : Vec F S1x768 .f32) : Gen.k0_pay5 v = v := shapeCast_self _ _

theorem pay6_eq (v : Vec F S512x128 .bf16) : Gen.k0_pay6 v = v := shapeCast_self _ _

theorem pay7_eq (v : Vec F S128x512 .bf16) : Gen.k0_pay7 v = v := shapeCast_self _ _

/-! ## The three functions at an entry -/

/-! ### The extended reals: finite sums and products of real entries -/

/-- The inclusion of the reals in the extended reals commutes with finite sums. -/
private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of real factors, taken in the extended reals, is the real sum of products. -/
private theorem sum_coe_mul_coe {ι : Type} [Fintype ι] (f g : ι → ℝ) :
    ∑ i, ((f i : ℝ) : EReal) * ((g i : ℝ) : EReal) = ((∑ i, f i * g i : ℝ) : EReal) := by
  rw [coe_sum]
  exact Finset.sum_congr rfl fun i _ => (EReal.coe_mul _ _).symm

/-- A real entry minus itself is zero, so a sum of real factors times such differences vanishes. -/
private theorem sum_coe_mul_sub_self {ι : Type} [Fintype ι] (f g : ι → ℝ) :
    ∑ i, ((f i : ℝ) : EReal) * (((g i : ℝ) : EReal) - ((g i : ℝ) : EReal)) = 0 := by
  refine Finset.sum_eq_zero fun i _ => ?_
  rw [← EReal.coe_sub, sub_self, EReal.coe_zero, mul_zero]

/-- The bit pattern `0x3E800000` is one quarter. -/
private theorem ofBits_quarter : Ideal.ofBits .f32 0x3E800000#32 = ((1 / 4 : ℝ) : EReal) := by
  simp [Ideal.ofBits, Ideal.ieee, -EReal.coe_mul]; norm_num

/-! ### A column broadcast along the rows -/

/-- An `[a, 1]` column broadcast to `[a, b]` reads, at `(p, c)`, the column's entry at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ### A matrix product into the zero accumulator, at an entry -/

section Product
variable {M K N : ℕ}

/-- For the product of an `[M, K]` by a `[K, N]` array, the left operand's index at the result's entry `(p, q)` and
    position `k` of the contracted axis is `(p, k)`. -/
private theorem plain_lhsIdx (p : Fin M) (q : Fin N) (k : Fin K) :
    (DotDims.plain M K N).lhsIdx (ix2 p q) ((contrEquiv1 (DotDims.plain M K N) K rfl rfl).symm k) = ix2 p k :=
  funext fun a => Fin.ext (match a with
    | ⟨0, _⟩ => rfl
    | ⟨1, _⟩ => ((DotDims.plain M K N).lhsIdx_val_of_single rfl _ _).trans
        (contrEquiv1_symm_val (DotDims.plain M K N) K rfl rfl k))

/-- … and the right operand's is `(k, q)`. -/
private theorem plain_rhsIdx (p : Fin M) (q : Fin N) (k : Fin K) :
    (DotDims.plain M K N).rhsIdx (ix2 p q) ((contrEquiv1 (DotDims.plain M K N) K rfl rfl).symm k) = ix2 k q :=
  funext fun a => Fin.ext (match a with
    | ⟨0, _⟩ => ((DotDims.plain M K N).rhsIdx_val_of_single rfl _ _).trans
        (contrEquiv1_symm_val (DotDims.plain M K N) K rfl rfl k)
    | ⟨1, _⟩ => rfl)

/-- So the product into the zero accumulator is, at `(p, q)`, the sum over `k` of `l (p, k) · r (k, q)`: the sum over
    the contraction index, re-indexed by its one coordinate. -/
private theorem matmul_plain_apply {φ₁ φ₂ : FTy} (l : FVec Ideal ⟨2, ![M, K]⟩ φ₁) (r : FVec Ideal ⟨2, ![K, N]⟩ φ₂)
    (p : Fin M) (q : Fin N) :
    matmul (DotDims.plain M K N) none l r (constant (F := Ideal) ⟨2, ![M, N]⟩ .f32 0x00000000#32) (ix2 p q)
      = ∑ k : Fin K, l (ix2 p k) * r (ix2 k q) := by
  refine (Ideal.matmul_constant_zero_apply _ _ l r (ix2 p q)).trans ?_
  rw [← Equiv.sum_comp (contrEquiv1 (DotDims.plain M K N) K rfl rfl).symm]
  exact Finset.sum_congr rfl fun k _ => by rw [plain_lhsIdx, plain_rhsIdx]

end Product

/-- The body's three products are of that kind: their dimension numbers contract the left operand's columns with the
    right operand's rows. The one-hot matrix times the table, [128, 5] · [5, 768]. -/
private theorem embMatmul_apply (l : FVec Ideal S128x5 .bf16) (r : FVec Ideal S5x768 .bf16) (e : Fin 128) (h : Fin 768) :
    matmul dot_S128x5_S5x768_S128x768_1_0_0_1_n_n none l r (constant (F := Ideal) S128x768 .f32 0x00000000#32) (ix2 e h)
      = ∑ k : Fin 5, l (ix2 e k) * r (ix2 k h) := matmul_plain_apply l r e h

/-- The count matrix times an embedding block, [512, 128] · [128, 768]. -/
private theorem scatMatmul_apply (l : FVec Ideal S512x128 .bf16) (r : FVec Ideal S128x768 .bf16) (s : Fin 512) (h : Fin 768) :
    matmul dot_S512x128_S128x768_S512x768_1_0_0_1_n_n none l r (constant (F := Ideal) S512x768 .f32 0x00000000#32) (ix2 s h)
      = ∑ e : Fin 128, l (ix2 s e) * r (ix2 e h) := matmul_plain_apply l r s h

/-- The transposed count matrix times an enhanced row, [128, 512] · [512, 768]. -/
private theorem poolMatmul_apply (l : FVec Ideal S128x512 .bf16) (r : FVec Ideal S512x768 .bf16) (e : Fin 128) (h : Fin 768) :
    matmul dot_S128x512_S512x768_S128x768_1_0_0_1_n_n none l r (constant (F := Ideal) S128x768 .f32 0x00000000#32) (ix2 e h)
      = ∑ s : Fin 512, l (ix2 e s) * r (ix2 s h) := matmul_plain_apply l r e h

/-! ### The one-hot matrix of the types -/

/-- Two numbers below 2^32 have the same 32-bit word only if they are equal. -/
private theorem ofNat32_inj {a b : ℕ} (ha : a < 2 ^ 32) (hb : b < 2 ^ 32) (h : BitVec.ofNat 32 a = BitVec.ofNat 32 b) :
    a = b := by
  have := congrArg BitVec.toNat h
  rwa [BitVec.toNat_ofNat, BitVec.toNat_ofNat, Nat.mod_eq_of_lt ha, Nat.mod_eq_of_lt hb] at this

/-- The bit of a comparison for equality, widened to a word and read as a signed integer, is 1 where the two words are
    equal and 0 where they differ. -/
private theorem eq_word_toReal (x y : BitVec 32) :
    ((((IntOp.cmpi .eq x y).setWidth 32).toInt : ℝ) : EReal) = if x = y then 1 else 0 := by
  by_cases h : x = y
  · have hw : IntOp.cmpi .eq x y = 1#1 := by
      show BitVec.ofBool (x == y) = 1#1
      rw [beq_iff_eq.mpr h]
      rfl
    have h1 : ((1#1 : BitVec 1).setWidth 32).toInt = 1 := by decide
    rw [if_pos h, hw, h1]; simp
  · have hw : IntOp.cmpi .eq x y = 0#1 := by
      show BitVec.ofBool (x == y) = 0#1
      rw [beq_eq_false_iff_ne.mpr h]
      rfl
    have h0 : ((0#1 : BitVec 1).setWidth 32).toInt = 0 := by decide
    rw [if_neg h, hw, h0]; simp

/-- Where the row's types are the numbers `ty e` < 5, the one-hot matrix at (e, k) is 1 if `ty e = k` and 0 otherwise:
    the type's word is compared with the word of the column number `k`. -/
private theorem onehot_apply (et : IVec S1x128x1 32) (ty : Fin 128 → Fin 5)
    (hty : ∀ e, et (ix3 (0 : Fin 1) e (0 : Fin 1)) = BitVec.ofNat 32 (ty e).val) (e : Fin 128) (k : Fin 5) :
    truncf (F := Ideal) .bf16 (sitofp .f32 (extui 32 (cmpi .eq
        (broadcastTo S128x5 (shapeCast S128x1 et shapeCasts_S1x128x1_S128x1) broadcasts_S128x1_S128x5)
        (iota .tc S128x5 32 [1] iota_S128x5_d1_w32)) natLt_1_32)) bitsLt_bf16_f32 (ix2 e k)
      = if ty e = k then 1 else 0 := by
  show ((((IntOp.cmpi .eq
      (broadcastTo S128x5 (shapeCast S128x1 et shapeCasts_S1x128x1_S128x1) broadcasts_S128x1_S128x5 (ix2 e k))
      (iota .tc S128x5 32 [1] iota_S128x5_d1_w32 (ix2 e k))).setWidth 32).toInt : ℝ) : EReal) = _
  rw [broadcastTo_a1_ab_apply, shapeCast_1ab_ab_apply, hty, iota_single_apply, eq_word_toReal]
  show (if BitVec.ofNat 32 (ty e).val = BitVec.ofNat 32 k.val then (1 : EReal) else 0) = _
  by_cases hk : ty e = k
  · rw [if_pos hk, if_pos (by rw [hk])]
  · rw [if_neg hk, if_neg fun hw => hk (Fin.ext (ofNat32_inj (by have := (ty e).isLt; omega) (by have := k.isLt; omega) hw))]

/-! ### The embeddings, the enhanced row and the pooled row at an entry -/

/-- The embeddings at (e, h): where the row's types are the numbers `ty e` < 5, the one-hot product picks row `ty e`
    of the table (every other term of the sum over the five rows is zero times an entry); the rest is entry by entry.
    No finiteness is needed: zero times any extended real is zero. -/
theorem embBlk_apply (tt : FVec Ideal S5x768 .bf16) (cw : FVec Ideal S1x768 .f32) (cb : FVec Ideal S1x768 .f32)
    (et : IVec S1x128x1 32) (ec : FVec Ideal S1x128x1 .f32) (ty : Fin 128 → Fin 5)
    (hty : ∀ e, et (ix3 (0 : Fin 1) e (0 : Fin 1)) = BitVec.ofNat 32 (ty e).val) (e : Fin 128) (h : Fin 768) :
    embBlk (F := Ideal) tt cw cb (iota .tc S128x5 32 [1] iota_S128x5_d1_w32) et ec (ix2 e h)
      = tt (ix2 (ty e) h) + (ec (ix3 (0 : Fin 1) e (0 : Fin 1)) * cw (ix2 (0 : Fin 1) h) + cb (ix2 (0 : Fin 1) h)) := by
  unfold embBlk
  rw [addf_apply, addf_apply, mulf_apply, embMatmul_apply, broadcastTo_a1_ab_apply, shapeCast_1ab_ab_apply,
    broadcastTo_1b_ab_apply, broadcastTo_1b_ab_apply]
  congr 1
  rw [Finset.sum_eq_single (ty e)]
  · rw [onehot_apply et ty hty, if_pos rfl, one_mul]
  · intro k _ hk
    rw [onehot_apply et ty hty, if_neg (Ne.symm hk), zero_mul]
  · intro hn
    exact absurd (Finset.mem_univ _) hn

/-- The count matrix times the embeddings at (s, h), over the reals: the embeddings minus themselves are zero, so the
    second product vanishes and the first is the real sum Σ_e M(s,e)·x(e,h). -/
private theorem scatBlk_apply (M : FVec Ideal S512x128 .bf16) (x : FVec Ideal S128x768 .f32)
    (Mr : Fin 512 → Fin 128 → ℝ) (xr : Fin 128 → Fin 768 → ℝ)
    (hM : ∀ s e, M (ix2 s e) = ((Mr s e : ℝ) : EReal)) (hx : ∀ e h, x (ix2 e h) = ((xr e h : ℝ) : EReal))
    (s : Fin 512) (h : Fin 768) :
    scatBlk (F := Ideal) M x (ix2 s h) = ((∑ e : Fin 128, Mr s e * xr e h : ℝ) : EReal) := by
  unfold scatBlk
  rw [addf_apply, scatMatmul_apply, scatMatmul_apply]
  have h1 : ∑ e : Fin 128, M (ix2 s e) * truncf (F := Ideal) .bf16 x bitsLt_bf16_f32 (ix2 e h)
      = ((∑ e : Fin 128, Mr s e * xr e h : ℝ) : EReal) := by
    rw [← sum_coe_mul_coe]
    exact Finset.sum_congr rfl fun e _ => by rw [truncf_apply, hM, hx]
  have h2 : ∑ e : Fin 128, M (ix2 s e) * truncf (F := Ideal) .bf16 (subf x x) bitsLt_bf16_f32 (ix2 e h) = 0 := by
    rw [← sum_coe_mul_sub_self (fun e => Mr s e) (fun e => xr e h)]
    exact Finset.sum_congr rfl fun e _ => by rw [truncf_apply, subf_apply, hM, hx]
  rw [h1, h2, add_zero]

/-- The enhanced row at (s, h), over the reals: with the count matrix, the embeddings and the hidden row all real, the
    embeddings minus themselves are zero, that product vanishes, and what is left is hidden plus Σ_e M(s,e)·x(e,h). -/
theorem enhBlk_apply (M : FVec Ideal S512x128 .bf16) (x : FVec Ideal S128x768 .f32) (hid : FVec Ideal S1x512x768 .f32)
    (Mr : Fin 512 → Fin 128 → ℝ) (xr : Fin 128 → Fin 768 → ℝ) (hr : Fin 512 → Fin 768 → ℝ)
    (hM : ∀ s e, M (ix2 s e) = ((Mr s e : ℝ) : EReal)) (hx : ∀ e h, x (ix2 e h) = ((xr e h : ℝ) : EReal))
    (hh : ∀ s h, hid (ix3 (0 : Fin 1) s h) = ((hr s h : ℝ) : EReal)) (s : Fin 512) (h : Fin 768) :
    enhBlk (F := Ideal) M x hid (ix2 s h) = ((hr s h + ∑ e : Fin 128, Mr s e * xr e h : ℝ) : EReal) := by
  unfold enhBlk
  rw [addf_apply, shapeCast_1ab_ab_apply, hh, scatBlk_apply M x Mr xr hM hx, ← EReal.coe_add]

/-- The pooled row at (e, h), over the reals: Σ_s Mt(e,s)·y(s,h), the split's second product vanishing as above, times
    the literal one quarter, which is the quotient by four. -/
theorem poolBlk_apply (Mt : FVec Ideal S128x512 .bf16) (y : FVec Ideal S512x768 .f32)
    (Mr : Fin 128 → Fin 512 → ℝ) (yr : Fin 512 → Fin 768 → ℝ)
    (hMt : ∀ e s, Mt (ix2 e s) = ((Mr e s : ℝ) : EReal)) (hy : ∀ s h, y (ix2 s h) = ((yr s h : ℝ) : EReal))
    (e : Fin 128) (h : Fin 768) :
    poolBlk (F := Ideal) Mt y (ix2 e h) = (((∑ s : Fin 512, Mr e s * yr s h) / 4 : ℝ) : EReal) := by
  unfold poolBlk
  rw [mulf_apply, addf_apply, poolMatmul_apply, poolMatmul_apply, broadcast_apply]
  have h1 : ∑ s : Fin 512, Mt (ix2 e s) * truncf (F := Ideal) .bf16 y bitsLt_bf16_f32 (ix2 s h)
      = ((∑ s : Fin 512, Mr e s * yr s h : ℝ) : EReal) := by
    rw [← sum_coe_mul_coe]
    exact Finset.sum_congr rfl fun s _ => by rw [truncf_apply, hMt, hy]
  have h2 : ∑ s : Fin 512, Mt (ix2 e s) * truncf (F := Ideal) .bf16 (subf y y) bitsLt_bf16_f32 (ix2 s h) = 0 := by
    rw [← sum_coe_mul_sub_self (fun s => Mr e s) (fun s => yr s h)]
    exact Finset.sum_congr rfl fun s _ => by rw [truncf_apply, subf_apply, hMt, hy]
  rw [h1, h2, add_zero]
  show ((∑ s : Fin 512, Mr e s * yr s h : ℝ) : EReal) * Ideal.ofBits .f32 0x3E800000#32 = _
  rw [ofBits_quarter, ← EReal.coe_mul, mul_one_div]

end Cert.KernelIdeal.Body

end
-- ==== Proof.KRows.lean ====
/-
  One batch row of the kernel body in the specification's terms.

  Given that the row's loads are the inputs' entries — the count matrix the multiplicities, the table, weight and bias
  rows the inputs', the row's types, confidences and hidden states those of batch row `b` — the embeddings the body
  forms are the specification's `emb b`, its enhanced row is `enh b`, and its pooled row is `pool b`.
-/
import proofs.«414526_j26903675142736_3_alg».proof.Proof.KBody
import proofs.«414526_j26903675142736_3_alg».proof.Proof.Spec

noncomputable section

open scoped BigOperators

namespace Cert.KernelIdeal.Rows

open Cert.KernelIdeal Cert.KernelIdeal.Body Cert.EntityPool Idealize.ShloMosaic Idealize.ShloMosaic.ValueIdx
open Facts₀ Facts

/-- The row's entity embeddings are the specification's. -/
theorem emb_row (I : Inputs) (et : IVec SBE 32) (tk : IVec STok 32) (hD : Dom I et tk) (b : Fin 64)
    (tt : FVec Ideal S5x768 .bf16) (htt : ∀ k h, tt (ix2 k h) = I.tt (ix2 k h))
    (cw : FVec Ideal S1x768 .f32) (hcw : ∀ h, cw (ix2 (0 : Fin 1) h) = I.cw (ix2 (0 : Fin 1) h))
    (cb : FVec Ideal S1x768 .f32) (hcb : ∀ h, cb (ix2 (0 : Fin 1) h) = I.cb (ix1 h))
    (E : IVec S1x128x1 32) (hE : ∀ e, E (ix3 (0 : Fin 1) e (0 : Fin 1)) = et (ix2 b e))
    (C : FVec Ideal S1x128x1 .f32) (hC : ∀ e, C (ix3 (0 : Fin 1) e (0 : Fin 1)) = I.ec (ix2 b e))
    (e : Fin 128) (h : Fin 768) :
    embBlk (F := Ideal) tt cw cb (iota .tc S128x5 32 [1] iota_S128x5_d1_w32) E C (ix2 e h)
      = ((I.emb b e h : ℝ) : EReal) := by
  rw [embBlk_apply tt cw cb E C (fun e => I.ty b e) (fun e => (hE e).trans (hD.ty_eq b e)) e h]
  rw [htt, hC, hcw, hcb, hD.tt_fin, hD.ec_fin, hD.cw_fin, hD.cb_fin]
  rw [← EReal.coe_mul, ← EReal.coe_add, ← EReal.coe_add]
  rfl

/-- The row's enhanced hidden states are the specification's. -/
theorem enh_row (I : Inputs) (et : IVec SBE 32) (tk : IVec STok 32) (hD : Dom I et tk) (b : Fin 64)
    (M : FVec Ideal S512x128 .bf16) (hM : ∀ s e, M (ix2 s e) = ((I.cnt s e : ℝ) : EReal))
    (tt : FVec Ideal S5x768 .bf16) (htt : ∀ k h, tt (ix2 k h) = I.tt (ix2 k h))
    (cw : FVec Ideal S1x768 .f32) (hcw : ∀ h, cw (ix2 (0 : Fin 1) h) = I.cw (ix2 (0 : Fin 1) h))
    (cb : FVec Ideal S1x768 .f32) (hcb : ∀ h, cb (ix2 (0 : Fin 1) h) = I.cb (ix1 h))
    (E : IVec S1x128x1 32) (hE : ∀ e, E (ix3 (0 : Fin 1) e (0 : Fin 1)) = et (ix2 b e))
    (C : FVec Ideal S1x128x1 .f32) (hC : ∀ e, C (ix3 (0 : Fin 1) e (0 : Fin 1)) = I.ec (ix2 b e))
    (H : FVec Ideal S1x512x768 .f32) (hH : ∀ s h, H (ix3 (0 : Fin 1) s h) = I.hid (ix3 b s h))
    (s : Fin 512) (h : Fin 768) :
    enhBlk (F := Ideal) M (embBlk (F := Ideal) tt cw cb (iota .tc S128x5 32 [1] iota_S128x5_d1_w32) E C) H (ix2 s h)
      = ((I.enh b s h : ℝ) : EReal) := by
  rw [enhBlk_apply M _ H (fun s e => (I.cnt s e : ℝ)) (fun e h => I.emb b e h)
    (fun s h => (I.hid (ix3 b s h)).toReal) hM
    (fun e h => emb_row I et tk hD b tt htt cw hcw cb hcb E hE C hC e h)
    (fun s h => (hH s h).trans (hD.hid_fin _)) s h]
  rfl

/-- The row's pooled entity embeddings are the specification's. -/
theorem pool_row (I : Inputs) (et : IVec SBE 32) (tk : IVec STok 32) (hD : Dom I et tk) (b : Fin 64)
    (M : FVec Ideal S512x128 .bf16) (hM : ∀ s e, M (ix2 s e) = ((I.cnt s e : ℝ) : EReal))
    (Mt : FVec Ideal S128x512 .bf16) (hMt : ∀ e s, Mt (ix2 e s) = ((I.cnt s e : ℝ) : EReal))
    (tt : FVec Ideal S5x768 .bf16) (htt : ∀ k h, tt (ix2 k h) = I.tt (ix2 k h))
    (cw : FVec Ideal S1x768 .f32) (hcw : ∀ h, cw (ix2 (0 : Fin 1) h) = I.cw (ix2 (0 : Fin 1) h))
    (cb : FVec Ideal S1x768 .f32) (hcb : ∀ h, cb (ix2 (0 : Fin 1) h) = I.cb (ix1 h))
    (E : IVec S1x128x1 32) (hE : ∀ e, E (ix3 (0 : Fin 1) e (0 : Fin 1)) = et (ix2 b e))
    (C : FVec Ideal S1x128x1 .f32) (hC : ∀ e, C (ix3 (0 : Fin 1) e (0 : Fin 1)) = I.ec (ix2 b e))
    (H : FVec Ideal S1x512x768 .f32) (hH : ∀ s h, H (ix3 (0 : Fin 1) s h) = I.hid (ix3 b s h))
    (e : Fin 128) (h : Fin 768) :
    poolBlk (F := Ideal) Mt
        (enhBlk (F := Ideal) M (embBlk (F := Ideal) tt cw cb (iota .tc S128x5 32 [1] iota_S128x5_d1_w32) E C) H) (ix2 e h)
      = ((I.pool b e h : ℝ) : EReal) := by
  rw [poolBlk_apply Mt _ (fun e s => (I.cnt s e : ℝ)) (fun s h => I.enh b s h) hMt
    (fun s h => enh_row I et tk hD b M hM tt htt cw hcw cb hcb E hE C hC H hH s h) e h]
  rfl

end Cert.KernelIdeal.Rows

end
-- ==== Proof.KHost.lean ====
/-
  What the region finds in the arrays the host operations wrote before it: the count matrix and its transpose, and
  the types, confidences and bias re-laid.
-/
import proofs.«414526_j26903675142736_3_alg».proof.Proof.Gen.KernelIdeal.Frame
import proofs.«414526_j26903675142736_3_alg».proof.Proof.Spec
import Idealize.ShloMosaic.Lib.StableHlo.Run
import Idealize.ShloMosaic.Lib.StableHlo.Predicate
import Idealize.ShloMosaic.Lib.ValueLayout

noncomputable section

open scoped BigOperators

namespace Cert.KernelIdeal.HostVals

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-! ## The count: a sum of widened bits over the last axis -/

/-- Summing the widened bits of an [n × m × k] mask over its LAST axis gives, at (p, q), the number of positions `t` of
    that axis whose bit is set at (p, q, t) (`k` below 2³² so the count does not wrap). -/
private theorem toNat_reduce_count_last {n m k : Nat} (hk : k < 2 ^ 32) (mask : IVec ⟨3, ![n, m, k]⟩ 1) (hw : 1 < 32)
    (h : (⟨3, ![n, m, k]⟩ : Shape).ReducesTo [2] ⟨2, ![n, m]⟩) {u : Shape} (hu : 0 < u.numel) (p : Fin n) (q : Fin m) :
    (Host.reduce IntOp.addi (extui 32 mask hw) (constantI u 32 0#32) h hu (ix2 p q)).toNat
      = (Finset.univ.filter (fun t : Fin k => mask (ix3 p q t) = 1#1)).card := by
  classical
  rw [Host.reduce_eq_fold]
  have hval : ∀ i, (extui 32 mask hw i).toNat = if mask i = 1#1 then 1 else 0 :=
    fun i => StableHlo.Predicate.toNat_setWidth_bit (mask i)
  -- the indices dropping to (p, q) are those whose first two coordinates are p and q
  have hdrop : ∀ i : (⟨3, ![n, m, k]⟩ : Shape).Idx, h.drop i = ix2 p q ↔ i 0 = p ∧ i 1 = q := by
    intro i
    have hv0 : (h.drop i 0 : Nat) = i 0 := Shape.ReducesTo.drop_apply_val h i 0
    have hv1 : (h.drop i 1 : Nat) = i 1 := Shape.ReducesTo.drop_apply_val h i 1
    constructor
    · intro e
      rw [e] at hv0 hv1
      exact ⟨Fin.ext hv0.symm, Fin.ext hv1.symm⟩
    · rintro ⟨e0, e1⟩
      funext b
      match b with
      | ⟨0, _⟩ => exact Fin.ext (hv0.trans (congrArg Fin.val e0))
      | ⟨1, _⟩ => exact Fin.ext (hv1.trans (congrArg Fin.val e1))
  -- such an index is (p, q, its last coordinate): the sum over them is the sum over the last axis
  have hback : ∀ i : (⟨3, ![n, m, k]⟩ : Shape).Idx, i 0 = p ∧ i 1 = q → ix3 p q (i 2) = i := fun i hi => by
    funext b
    match b with
    | ⟨0, _⟩ => exact hi.1.symm
    | ⟨1, _⟩ => exact hi.2.symm
    | ⟨2, _⟩ => rfl
  have hsum : ∑ i ∈ Finset.univ.filter (fun i : (⟨3, ![n, m, k]⟩ : Shape).Idx => h.drop i = ix2 p q), (extui 32 mask hw i).toNat
      = (Finset.univ.filter (fun t : Fin k => mask (ix3 p q t) = 1#1)).card := by
    rw [Finset.card_filter]
    refine Finset.sum_bij' (fun i _ => i 2) (fun t _ => ix3 p q t) (fun _ _ => Finset.mem_univ _)
      (fun t _ => Finset.mem_filter.2 ⟨Finset.mem_univ _, (hdrop _).2 ⟨rfl, rfl⟩⟩)
      (fun i hi => hback i ((hdrop i).1 (Finset.mem_filter.1 hi).2)) (fun _ _ => rfl) ?_
    intro i hi
    rw [hval]
    exact (congrArg (fun x => if mask x = 1#1 then 1 else 0) (hback i ((hdrop i).1 (Finset.mem_filter.1 hi).2))).symm
  show (Finset.fold IntOp.addi 0#32 (extui 32 mask hw)
      (Finset.univ.filter fun i : (⟨3, ![n, m, k]⟩ : Shape).Idx => h.drop i = ix2 p q)).toNat = _
  rw [StableHlo.Predicate.toNat_fold_addi _ _ (by
    rw [hsum]; exact lt_of_le_of_lt (Finset.card_le_univ _) (by simpa using hk)), hsum]

/-! ## The compared arrays, and the count matrix's word -/

/-- The compared arrays at (s, e, t): the tokens laid along the last two axes read entity `e`'s token `t`, and the
    positions laid along the first axis read the word of `s`. -/
private theorem mask_apply (tk : IVec S128x4 32) (s : Fin 512) (e : Fin 128) (t : Fin 4) :
    cmpi .eq
        (broadcastInDim S512x128x4 ![0, 1, 2] bcast_S1x128x4_S512x128x4_0_1_2
          (broadcastInDim S1x128x4 ![1, 2] bcast_S128x4_S1x128x4_1_2 tk))
        (broadcastInDim S512x128x4 ![0, 1, 2] bcast_S512x1x1_S512x128x4_0_1_2
          (broadcastInDim S512x1x1 ![0] bcast_S512_S512x1x1_0 (iotaInDim S512 32 0))) (ix3 s e t)
      = IntOp.cmpi .eq (tk (ix2 e t)) (BitVec.ofNat 32 s.val) := by
  have hl : broadcastInDim S512x128x4 ![0, 1, 2] bcast_S1x128x4_S512x128x4_0_1_2
        (broadcastInDim S1x128x4 ![1, 2] bcast_S128x4_S1x128x4_1_2 tk) (ix3 s e t) = tk (ix2 e t) :=
    (broadcastInDim_apply _ _ _ (ix3 s e t) (ix3 (0 : Fin 1) e t)
        fun a => match a with | ⟨0, _⟩ => rfl | ⟨1, _⟩ => rfl | ⟨2, _⟩ => rfl).trans
      (broadcastInDim_apply _ _ tk (ix3 (0 : Fin 1) e t) (ix2 e t) fun a => match a with | ⟨0, _⟩ => rfl | ⟨1, _⟩ => rfl)
  have hr : broadcastInDim S512x128x4 ![0, 1, 2] bcast_S512x1x1_S512x128x4_0_1_2
        (broadcastInDim S512x1x1 ![0] bcast_S512_S512x1x1_0 (iotaInDim S512 32 0)) (ix3 s e t) = BitVec.ofNat 32 s.val :=
    (broadcastInDim_apply _ _ _ (ix3 s e t) (ix3 s (0 : Fin 1) (0 : Fin 1))
        fun a => match a with | ⟨0, _⟩ => rfl | ⟨1, _⟩ => rfl | ⟨2, _⟩ => rfl).trans
      (broadcastInDim_apply _ _ (iotaInDim S512 32 0) (ix3 s (0 : Fin 1) (0 : Fin 1)) (ix1 s) fun a => match a with | ⟨0, _⟩ => rfl)
  show IntOp.cmpi .eq _ _ = _
  rw [hl, hr]

/-- Two positions below 512 have the same 32-bit word only if they are the same position. -/
private theorem ofNat_inj_pos (a b : Fin 512) : BitVec.ofNat 32 a.val = BitVec.ofNat 32 b.val ↔ a = b := by
  constructor
  · intro h
    have h' := congrArg BitVec.toNat h
    simp only [BitVec.toNat_ofNat] at h'
    have ha := a.isLt
    have hb := b.isLt
    exact Fin.ext (by omega)
  · intro h; rw [h]

/-- The count matrix's word at (s, e), read signed: the number of entity `e`'s four tokens that are position `s`. -/
private theorem toInt_counts (tk : IVec S128x4 32) (tok : Fin 128 → Fin 4 → Fin 512)
    (htok : ∀ e t, tk (ix2 e t) = BitVec.ofNat 32 (tok e t).val) (s : Fin 512) (e : Fin 128) :
    (Host.reduce IntOp.addi
        (extui 32 (cmpi .eq
          (broadcastInDim S512x128x4 ![0, 1, 2] bcast_S1x128x4_S512x128x4_0_1_2
            (broadcastInDim S1x128x4 ![1, 2] bcast_S128x4_S1x128x4_1_2 tk))
          (broadcastInDim S512x128x4 ![0, 1, 2] bcast_S512x1x1_S512x128x4_0_1_2
            (broadcastInDim S512x1x1 ![0] bcast_S512_S512x1x1_0 (iotaInDim S512 32 0)))) natLt_1_32)
        (constantI S_ 32 0#32) reducesTo_S512x128x4_S512x128_d2 h_S_ (ix2 s e)).toInt
      = ((Finset.univ.filter fun t : Fin 4 => tok e t = s).card : ℤ) := by
  have hn := toNat_reduce_count_last (n := 512) (m := 128) (k := 4) (by norm_num)
    (cmpi .eq
      (broadcastInDim S512x128x4 ![0, 1, 2] bcast_S1x128x4_S512x128x4_0_1_2
        (broadcastInDim S1x128x4 ![1, 2] bcast_S128x4_S1x128x4_1_2 tk))
      (broadcastInDim S512x128x4 ![0, 1, 2] bcast_S512x1x1_S512x128x4_0_1_2
        (broadcastInDim S512x1x1 ![0] bcast_S512_S512x1x1_0 (iotaInDim S512 32 0))))
    natLt_1_32 reducesTo_S512x128x4_S512x128_d2 h_S_ s e
  have hc : (Finset.univ.filter fun t : Fin 4 =>
        cmpi .eq
          (broadcastInDim S512x128x4 ![0, 1, 2] bcast_S1x128x4_S512x128x4_0_1_2
            (broadcastInDim S1x128x4 ![1, 2] bcast_S128x4_S1x128x4_1_2 tk))
          (broadcastInDim S512x128x4 ![0, 1, 2] bcast_S512x1x1_S512x128x4_0_1_2
            (broadcastInDim S512x1x1 ![0] bcast_S512_S512x1x1_0 (iotaInDim S512 32 0))) (ix3 s e t) = 1#1)
      = Finset.univ.filter fun t : Fin 4 => tok e t = s :=
    Finset.filter_congr fun t _ => by
      rw [mask_apply, StableHlo.Predicate.cmpi_eq_iff, htok, ofNat_inj_pos]
  rw [hc] at hn
  have hle : (Finset.univ.filter fun t : Fin 4 => tok e t = s).card ≤ 4 :=
    (Finset.card_le_univ _).trans (by simp)
  rw [StableHlo.Predicate.toInt_eq_toNat_of_lt (by rw [hn]; omega), hn]

/-! ## The two arrays as the operations' terms -/

section HostTerms

-- both arrays are the operations' terms over the launched tokens; the two equations compare the terms operation by
-- operation, the sum over the last axis kept whole on both sides
attribute [local irreducible] Host.reduce

/-- The count matrix as the operations' term over the launched tokens: positions along the first axis against the
    tokens along the last two, compared, widened, summed over the last axis, converted. -/
private theorem counts_eq :
    (V m c main_v0_0 : S512x128.Idx → EReal)
      = (sitofp (F := Ideal) .bf16 (Host.reduce IntOp.addi
          (extui 32 (cmpi .eq
            (broadcastInDim S512x128x4 ![0, 1, 2] bcast_S1x128x4_S512x128x4_0_1_2
              (broadcastInDim S1x128x4 ![1, 2] bcast_S128x4_S1x128x4_1_2
                (m ((c : Thread nD τ).loc main_arg3) : S128x4.Idx → BitVec 32)))
            (broadcastInDim S512x128x4 ![0, 1, 2] bcast_S512x1x1_S512x128x4_0_1_2
              (broadcastInDim S512x1x1 ![0] bcast_S512_S512x1x1_0 (iotaInDim S512 32 0)))) natLt_1_32)
          (constantI S_ 32 0#32) reducesTo_S512x128x4_S512x128_d2 h_S_) : S512x128.Idx → EReal) := by
  dsimp only [Gen.V]
  simp only [Gen.hostOps0, Gen.hostOps0_1, List.flatten_cons, List.flatten_nil, List.append_nil, List.cons_append,
    List.nil_append]
  after_results
  rfl

/-- Its transpose, likewise: the same sum transposed, then converted. -/
private theorem countsT_eq :
    (V m c main_v0_1 : S128x512.Idx → EReal)
      = (sitofp (F := Ideal) .bf16 (transpose S128x512 [1, 0] (Host.reduce IntOp.addi
          (extui 32 (cmpi .eq
            (broadcastInDim S512x128x4 ![0, 1, 2] bcast_S1x128x4_S512x128x4_0_1_2
              (broadcastInDim S1x128x4 ![1, 2] bcast_S128x4_S1x128x4_1_2
                (m ((c : Thread nD τ).loc main_arg3) : S128x4.Idx → BitVec 32)))
            (broadcastInDim S512x128x4 ![0, 1, 2] bcast_S512x1x1_S512x128x4_0_1_2
              (broadcastInDim S512x1x1 ![0] bcast_S512_S512x1x1_0 (iotaInDim S512 32 0)))) natLt_1_32)
          (constantI S_ 32 0#32) reducesTo_S512x128x4_S512x128_d2 h_S_) transposes_S512x128_S128x512_1_0) : S128x512.Idx → EReal) := by
  dsimp only [Gen.V]
  simp only [Gen.hostOps0, Gen.hostOps0_1, List.flatten_cons, List.flatten_nil, List.append_nil, List.cons_append,
    List.nil_append]
  after_results
  rfl

end HostTerms

/-! ## What the region finds -/

/-- The count matrix [512, 128] at (s, e): how many of entity `e`'s four tokens are position `s`, as a real. -/
theorem V_counts (tok : Fin 128 → Fin 4 → Fin 512)
    (htok : ∀ e t, (m ((c : Thread nD τ).loc main_arg3) : S128x4.Idx → BitVec 32) (ix2 e t) = BitVec.ofNat 32 (tok e t).val)
    (s : Fin 512) (e : Fin 128) :
    (V m c main_v0_0 : S512x128.Idx → EReal) (ix2 s e)
      = (((Finset.univ.filter fun t : Fin 4 => tok e t = s).card : ℝ) : EReal) := by
  rw [counts_eq]
  -- the conversion of the word at (s, e) is its signed value, which is the count
  show (((_ : BitVec 32).toInt : ℝ) : EReal) = _
  rw [toInt_counts _ tok htok s e]
  norm_cast

/-- Its transpose [128, 512] at (e, s). -/
theorem V_countsT (tok : Fin 128 → Fin 4 → Fin 512)
    (htok : ∀ e t, (m ((c : Thread nD τ).loc main_arg3) : S128x4.Idx → BitVec 32) (ix2 e t) = BitVec.ofNat 32 (tok e t).val)
    (e : Fin 128) (s : Fin 512) :
    (V m c main_v0_1 : S128x512.Idx → EReal) (ix2 e s)
      = (((Finset.univ.filter fun t : Fin 4 => tok e t = s).card : ℝ) : EReal) := by
  rw [countsT_eq]
  -- the transposed word at (e, s) is the count matrix's word at (s, e)
  show (((transpose S128x512 [1, 0] _ transposes_S512x128_S128x512_1_0 (ix2 e s) : BitVec 32).toInt : ℝ) : EReal) = _
  rw [transpose_ix2_apply, toInt_counts _ tok htok s e]
  norm_cast

/-- The types as [64, 128, 1]. -/
theorem V_types (b : Fin 64) (e : Fin 128) :
    (V m c main_v1 : S64x128x1.Idx → BitVec 32) (ix3 b e 0)
      = (m ((c : Thread nD τ).loc main_arg1) : S64x128.Idx → BitVec 32) (ix2 b e) := by
  -- the array is the launched types with a unit axis appended
  have e1 : (V m c main_v1 : S64x128x1.Idx → BitVec 32)
      = broadcastInDim S64x128x1 ![0, 1] bcast_S64x128_S64x128x1_0_1
          (m ((c : Thread nD τ).loc main_arg1) : S64x128.Idx → BitVec 32) := by
    dsimp only [Gen.V]
    simp only [Gen.hostOps0, Gen.hostOps0_1, List.flatten_cons, List.flatten_nil, List.append_nil, List.cons_append,
      List.nil_append]
    after_results
  rw [e1]
  exact broadcastInDim_apply _ _ _ _ _ fun a => match a with | ⟨0, _⟩ => rfl | ⟨1, _⟩ => rfl

/-- The confidences as [64, 128, 1]. -/
theorem V_conf (b : Fin 64) (e : Fin 128) :
    (V m c main_v2 : S64x128x1.Idx → EReal) (ix3 b e 0)
      = (m ((c : Thread nD τ).loc main_arg2) : S64x128.Idx → EReal) (ix2 b e) := by
  -- the array is the launched confidences with a unit axis appended
  have e1 : (V m c main_v2 : S64x128x1.Idx → EReal)
      = broadcastInDim S64x128x1 ![0, 1] bcast_S64x128_S64x128x1_0_1
          (m ((c : Thread nD τ).loc main_arg2) : S64x128.Idx → EReal) := by
    dsimp only [Gen.V]
    simp only [Gen.hostOps0, Gen.hostOps0_1, List.flatten_cons, List.flatten_nil, List.append_nil, List.cons_append,
      List.nil_append]
    after_results
  rw [e1]
  exact broadcastInDim_apply _ _ _ _ _ fun a => match a with | ⟨0, _⟩ => rfl | ⟨1, _⟩ => rfl

/-- The bias as a row [1, 768]. -/
theorem V_bias (h : Fin 768) :
    (V m c main_v3 : S1x768.Idx → EReal) (ix2 0 h)
      = (m ((c : Thread nD τ).loc main_arg6) : S768.Idx → EReal) (ix1 h) := by
  -- the array is the launched bias, its 768 entries laid as one row: same row-major position
  have e1 : (V m c main_v3 : S1x768.Idx → EReal)
      = shapeCast S1x768 (m ((c : Thread nD τ).loc main_arg6) : S768.Idx → EReal) shapeCasts_S768_S1x768 := by
    dsimp only [Gen.V]
    simp only [Gen.hostOps0, Gen.hostOps0_1, List.flatten_cons, List.flatten_nil, List.append_nil, List.cons_append,
      List.nil_append]
    after_results
    rfl
  rw [e1]
  exact shapeCast_a_1a_apply _ _ 0 h

end Cert.KernelIdeal.HostVals

end
-- ==== Proof.KBlocks.lean ====
/-
  From blocks to arrays.

  Grid point `t` (of 16) stages batch rows 4t … 4t+3 of the hidden states, types and confidences, and the whole of the
  table, weight row, bias row, count matrix and its transpose; it writes back rows 4t … 4t+3 of the two results. So
  what point `t` writes back is block `t` of the specification's two functions, the 16 blocks cover both result
  arrays, and after the run each result array is that function.
-/
import proofs.«414526_j26903675142736_3_alg».proof.Proof.Gen.KernelIdeal.Value
import proofs.«414526_j26903675142736_3_alg».proof.Proof.KRows
import proofs.«414526_j26903675142736_3_alg».proof.Proof.KHost

set_option maxRecDepth 16384

noncomputable section

open scoped BigOperators

namespace Cert.KernelIdeal.Blocks

open Cert.KernelIdeal Cert.KernelIdeal.Gen Cert.EntityPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's inputs as core `c`'s memory holds them at launch, with the decoded types and tokens. -/
def inp (c : Dev nD) (ty : Fin 64 → Fin 128 → Fin 5) (tok : Fin 128 → Fin 4 → Fin 512) : Inputs where
  hid := m ((c : Thread nD τ).loc main_arg0)
  ec := m ((c : Thread nD τ).loc main_arg2)
  tt := m ((c : Thread nD τ).loc main_arg4)
  cw := m ((c : Thread nD τ).loc main_arg5)
  cb := m ((c : Thread nD τ).loc main_arg6)
  ty := ty
  tok := tok

/-- The printed index maps, decided over the 16 points: the three row-blocked inputs and the two outputs sit at block
    (t, 0, 0), the five whole-array inputs at block (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-! ## The input windows' blocks at point `t`, each named at its literal type and read at coordinates -/

abbrev hblk (c : Dev nD) (t : Fin cfg0.N) : Vec Ideal S4x512x768 .f32 := iblk m c 0 t
abbrev eblk (c : Dev nD) (t : Fin cfg0.N) : Vec Ideal S4x128x1 .i32 := iblk m c 1 t
abbrev cblk (c : Dev nD) (t : Fin cfg0.N) : Vec Ideal S4x128x1 .f32 := iblk m c 2 t
abbrev tblk (c : Dev nD) (t : Fin cfg0.N) : Vec Ideal S5x768 .f32 := iblk m c 3 t
abbrev wblk (c : Dev nD) (t : Fin cfg0.N) : Vec Ideal S1x768 .f32 := iblk m c 4 t
abbrev bblk (c : Dev nD) (t : Fin cfg0.N) : Vec Ideal S1x768 .f32 := iblk m c 5 t
abbrev Mblk (c : Dev nD) (t : Fin cfg0.N) : Vec Ideal S512x128 .bf16 := iblk m c 6 t
abbrev Mtblk (c : Dev nD) (t : Fin cfg0.N) : Vec Ideal S128x512 .bf16 := iblk m c 7 t

/-- Row `i` of the hidden-state block at point `t` is batch row 4t + i. -/
theorem hblk_apply (c : Dev nD) (t : Fin cfg0.N) (i : Fin 4) (s : Fin 512) (h : Fin 768) (b : Fin 64)
    (hb : b.val = 4 * t.val + i.val) :
    hblk m c t (ix3 i s h) = (m ((c : Thread nD τ).loc main_arg0) : S64x512x768.Idx → EReal) (ix3 b s h) := by
  show V m c main_arg0 (((cfg0.win 0).blk t).view.emb (ix3 i s h)) = _
  rw [V_main_arg0]
  refine congrArg _ (funext fun a => Fin.ext ?_)
  obtain ⟨⟨e0, e1, e2⟩, -⟩ := idx_facts t
  match a with
  | ⟨0, _⟩ => show win0_0.index t (0 : Fin 3) * 4 + 1 * i.val = b.val; omega
  | ⟨1, _⟩ => show win0_0.index t (1 : Fin 3) * 512 + 1 * s.val = s.val; omega
  | ⟨2, _⟩ => show win0_0.index t (2 : Fin 3) * 768 + 1 * h.val = h.val; omega

/-- Row `i` of the types block at point `t` is batch row 4t + i of the types. -/
theorem eblk_apply (c : Dev nD) (t : Fin cfg0.N) (i : Fin 4) (e : Fin 128) (b : Fin 64)
    (hb : b.val = 4 * t.val + i.val) :
    eblk m c t (ix3 i e (0 : Fin 1)) = (m ((c : Thread nD τ).loc main_arg1) : S64x128.Idx → BitVec 32) (ix2 b e) := by
  have hx : ((cfg0.win 1).blk t).view.emb (ix3 i e (0 : Fin 1)) = (ix3 b e (0 : Fin 1) : S64x128x1.Idx) := by
    refine funext fun a => Fin.ext ?_
    obtain ⟨-, ⟨e0, e1, e2⟩, -⟩ := idx_facts t
    match a with
    | ⟨0, _⟩ => show win0_1.index t (0 : Fin 3) * 4 + 1 * i.val = b.val; omega
    | ⟨1, _⟩ => show win0_1.index t (1 : Fin 3) * 128 + 1 * e.val = e.val; omega
    | ⟨2, _⟩ => show win0_1.index t (2 : Fin 3) * 1 + 1 * 0 = 0; omega
  show V m c main_v1 (((cfg0.win 1).blk t).view.emb (ix3 i e (0 : Fin 1))) = _
  rw [hx]
  exact HostVals.V_types m c b e

/-- Row `i` of the confidences block at point `t` is batch row 4t + i of the confidences. -/
theorem cblk_apply (c : Dev nD) (t : Fin cfg0.N) (i : Fin 4) (e : Fin 128) (b : Fin 64)
    (hb : b.val = 4 * t.val + i.val) :
    cblk m c t (ix3 i e (0 : Fin 1)) = (m ((c : Thread nD τ).loc main_arg2) : S64x128.Idx → EReal) (ix2 b e) := by
  have hx : ((cfg0.win 2).blk t).view.emb (ix3 i e (0 : Fin 1)) = (ix3 b e (0 : Fin 1) : S64x128x1.Idx) := by
    refine funext fun a => Fin.ext ?_
    obtain ⟨-, -, ⟨e0, e1, e2⟩, -⟩ := idx_facts t
    match a with
    | ⟨0, _⟩ => show win0_2.index t (0 : Fin 3) * 4 + 1 * i.val = b.val; omega
    | ⟨1, _⟩ => show win0_2.index t (1 : Fin 3) * 128 + 1 * e.val = e.val; omega
    | ⟨2, _⟩ => show win0_2.index t (2 : Fin 3) * 1 + 1 * 0 = 0; omega
  show V m c main_v2 (((cfg0.win 2).blk t).view.emb (ix3 i e (0 : Fin 1))) = _
  rw [hx]
  exact HostVals.V_conf m c b e

/-- The table block is the whole table. -/
theorem tblk_apply (c : Dev nD) (t : Fin cfg0.N) (k : Fin 5) (h : Fin 768) :
    tblk m c t (ix2 k h) = (m ((c : Thread nD τ).loc main_arg4) : S5x768.Idx → EReal) (ix2 k h) := by
  show V m c main_arg4 (((cfg0.win 3).blk t).view.emb (ix2 k h)) = _
  rw [V_main_arg4]
  refine congrArg _ (funext fun a => Fin.ext ?_)
  obtain ⟨-, -, -, ⟨e0, e1⟩, -⟩ := idx_facts t
  match a with
  | ⟨0, _⟩ => show win0_3.index t (0 : Fin 2) * 5 + 1 * k.val = k.val; omega
  | ⟨1, _⟩ => show win0_3.index t (1 : Fin 2) * 768 + 1 * h.val = h.val; omega

/-- The weight block is the whole weight row. -/
theorem wblk_apply (c : Dev nD) (t : Fin cfg0.N) (h : Fin 768) :
    wblk m c t (ix2 (0 : Fin 1) h) = (m ((c : Thread nD τ).loc main_arg5) : S1x768.Idx → EReal) (ix2 (0 : Fin 1) h) := by
  show V m c main_arg5 (((cfg0.win 4).blk t).view.emb (ix2 (0 : Fin 1) h)) = _
  rw [V_main_arg5]
  refine congrArg _ (funext fun a => Fin.ext ?_)
  obtain ⟨-, -, -, -, ⟨e0, e1⟩, -⟩ := idx_facts t
  match a with
  | ⟨0, _⟩ => show win0_4.index t (0 : Fin 2) * 1 + 1 * 0 = 0; omega
  | ⟨1, _⟩ => show win0_4.index t (1 : Fin 2) * 768 + 1 * h.val = h.val; omega

/-- The bias block is the bias, laid as a row. -/
theorem bblk_apply (c : Dev nD) (t : Fin cfg0.N) (h : Fin 768) :
    bblk m c t (ix2 (0 : Fin 1) h) = (m ((c : Thread nD τ).loc main_arg6) : S768.Idx → EReal) (ix1 h) := by
  have hx : ((cfg0.win 5).blk t).view.emb (ix2 (0 : Fin 1) h) = (ix2 (0 : Fin 1) h : S1x768.Idx) := by
    refine funext fun a => Fin.ext ?_
    obtain ⟨-, -, -, -, -, ⟨e0, e1⟩, -⟩ := idx_facts t
    match a with
    | ⟨0, _⟩ => show win0_5.index t (0 : Fin 2) * 1 + 1 * 0 = 0; omega
    | ⟨1, _⟩ => show win0_5.index t (1 : Fin 2) * 768 + 1 * h.val = h.val; omega
  show V m c main_v3 (((cfg0.win 5).blk t).view.emb (ix2 (0 : Fin 1) h)) = _
  rw [hx]
  exact HostVals.V_bias m c h

/-- The count-matrix block is the whole count matrix: the multiplicities. -/
theorem Mblk_apply (c : Dev nD) (t : Fin cfg0.N) (tok : Fin 128 → Fin 4 → Fin 512)
    (htok : ∀ e t, (m ((c : Thread nD τ).loc main_arg3) : S128x4.Idx → BitVec 32) (ix2 e t) = BitVec.ofNat 32 (tok e t).val)
    (s : Fin 512) (e : Fin 128) :
    Mblk m c t (ix2 s e) = (((Finset.univ.filter fun t : Fin 4 => tok e t = s).card : ℝ) : EReal) := by
  have hx : ((cfg0.win 6).blk t).view.emb (ix2 s e) = (ix2 s e : S512x128.Idx) := by
    refine funext fun a => Fin.ext ?_
    obtain ⟨-, -, -, -, -, -, ⟨e0, e1⟩, -⟩ := idx_facts t
    match a with
    | ⟨0, _⟩ => show win0_6.index t (0 : Fin 2) * 512 + 1 * s.val = s.val; omega
    | ⟨1, _⟩ => show win0_6.index t (1 : Fin 2) * 128 + 1 * e.val = e.val; omega
  show V m c main_v0_0 (((cfg0.win 6).blk t).view.emb (ix2 s e)) = _
  rw [hx]
  exact HostVals.V_counts m c tok htok s e

/-- The transposed block likewise. -/
theorem Mtblk_apply (c : Dev nD) (t : Fin cfg0.N) (tok : Fin 128 → Fin 4 → Fin 512)
    (htok : ∀ e t, (m ((c : Thread nD τ).loc main_arg3) : S128x4.Idx → BitVec 32) (ix2 e t) = BitVec.ofNat 32 (tok e t).val)
    (e : Fin 128) (s : Fin 512) :
    Mtblk m c t (ix2 e s) = (((Finset.univ.filter fun t : Fin 4 => tok e t = s).card : ℝ) : EReal) := by
  have hx : ((cfg0.win 7).blk t).view.emb (ix2 e s) = (ix2 e s : S128x512.Idx) := by
    refine funext fun a => Fin.ext ?_
    obtain ⟨-, -, -, -, -, -, -, ⟨e0, e1⟩, -⟩ := idx_facts t
    match a with
    | ⟨0, _⟩ => show win0_7.index t (0 : Fin 2) * 128 + 1 * e.val = e.val; omega
    | ⟨1, _⟩ => show win0_7.index t (1 : Fin 2) * 512 + 1 * s.val = s.val; omega
  show V m c main_v0_1 (((cfg0.win 7).blk t).view.emb (ix2 e s)) = _
  rw [hx]
  exact HostVals.V_countsT m c tok htok e s

/-! ## Reading a row of a block, and a value stored with a leading unit axis -/

/-- A load of row `i` of an [A, B, C] block (a [1, B, C] rectangle at offsets (i, 0, 0)) reads, at (0, p, q), the block
    at (i, p, q). -/
theorem ld_row {Val : EltTy → Type} {el : EltTy} {A B C : Nat} (X : (⟨3, ![A, B, C]⟩ : Shape).Idx → Val el) (off : Fin 3 → Nat) (i : Fin A)
    (hoff : off = ![i.val, 0, 0])
    (inb : ∀ a, off a + (⟨3, ![1, B, C]⟩ : Shape).size a ≤ (⟨3, ![A, B, C]⟩ : Shape).size a) (p : Fin B) (q : Fin C) :
    View.ld X (Rect.unit off (⟨3, ![1, B, C]⟩ : Shape).size inb) (ix3 (0 : Fin 1) p q) = X (ix3 i p q) := by
  subst hoff
  refine congrArg X (funext fun a => Fin.ext ?_)
  match a with
  | ⟨0, _⟩ => show i.val + 1 * 0 = i.val; omega
  | ⟨1, _⟩ => show 0 + 1 * p.val = p.val; omega
  | ⟨2, _⟩ => show 0 + 1 * q.val = q.val; omega

/-- A [B, C] value cast to [1, B, C] reads, at (z, p, q), the value at (p, q). -/
theorem addUnit_apply3 {α : Type} {B C : Nat} (v : (⟨2, ![B, C]⟩ : Shape).Idx → α)
    (hc : (⟨2, ![B, C]⟩ : Shape).ShapeCasts ⟨3, ![1, B, C]⟩) (z : Fin 1) (p : Fin B) (q : Fin C) :
    shapeCast (⟨3, ![1, B, C]⟩ : Shape) v hc (ix3 z p q) = v (ix2 p q) := by
  rw [shapeCast_addUnit_apply ![B, C] v hc (ix3 z p q)]
  refine congrArg v (funext fun a => ?_)
  match a with
  | ⟨0, _⟩ => rfl
  | ⟨1, _⟩ => rfl

/-! ## What the body leaves in the two output blocks, over variables

The eight input blocks are variables of their literal types; what is known of them is which inputs' entries they
hold, with `bOf i` the batch row that row `i` of a row-blocked input is. -/

section Leaves

variable (I : Inputs) (et : IVec SBE 32) (tk : IVec STok 32) (hD : Dom I et tk) (bOf : Fin 4 → Fin 64)
  (x0 : Vec Ideal S4x512x768 .f32) (x1 : Vec Ideal S4x128x1 .i32) (x2 : Vec Ideal S4x128x1 .f32)
  (x3 : Vec Ideal S5x768 .f32) (x4 : Vec Ideal S1x768 .f32) (x5 : Vec Ideal S1x768 .f32)
  (x6 : Vec Ideal S512x128 .bf16) (x7 : Vec Ideal S128x512 .bf16)
  (h0 : ∀ (i : Fin 4) (s : Fin 512) (h : Fin 768), x0 (ix3 i s h) = I.hid (ix3 (bOf i) s h))
  (h1 : ∀ (i : Fin 4) (e : Fin 128), x1 (ix3 i e (0 : Fin 1)) = et (ix2 (bOf i) e))
  (h2 : ∀ (i : Fin 4) (e : Fin 128), x2 (ix3 i e (0 : Fin 1)) = I.ec (ix2 (bOf i) e))
  (h3 : ∀ (k : Fin 5) (h : Fin 768), x3 (ix2 k h) = I.tt (ix2 k h))
  (h4 : ∀ h : Fin 768, x4 (ix2 (0 : Fin 1) h) = I.cw (ix2 (0 : Fin 1) h))
  (h5 : ∀ h : Fin 768, x5 (ix2 (0 : Fin 1) h) = I.cb (ix1 h))
  (h6 : ∀ (s : Fin 512) (e : Fin 128), x6 (ix2 s e) = ((I.cnt s e : ℝ) : EReal))
  (h7 : ∀ (e : Fin 128) (s : Fin 512), x7 (ix2 e s) = ((I.cnt s e : ℝ) : EReal))

include hD h0 h1 h2 h3 h4 h5 h6

/-- Row `i`'s enhanced states, from loads through the four rectangles of row `i`. -/
theorem enh_leaf (i : Fin 4) (offE : Fin 3 → Nat) (hoffE : offE = ![i.val, 0, 0])
    (inbE : ∀ a, offE a + S1x128x1.size a ≤ S4x128x1.size a)
    (offH : Fin 3 → Nat) (hoffH : offH = ![i.val, 0, 0]) (inbH : ∀ a, offH a + S1x512x768.size a ≤ S4x512x768.size a)
    (s : Fin 512) (h : Fin 768) :
    Body.enhBlk (F := Ideal) (Gen.k0_pay6 (View.ld x6 r0_2))
        (Body.embBlk (F := Ideal) (Gen.k0_pay4 (View.ld x3 r0_0)) (View.ld x4 r0_1) (Gen.k0_pay5 (View.ld x5 r0_1))
          (iota .tc S128x5 32 [1] iota_S128x5_d1_w32) (View.ld x1 (Rect.unit offE S1x128x1.size inbE))
          (View.ld x2 (Rect.unit offE S1x128x1.size inbE)))
        (View.ld x0 (Rect.unit offH S1x512x768.size inbH)) (ix2 s h)
      = ((I.enh (bOf i) s h : ℝ) : EReal) := by
  have hz2 : (![0, 0] : Fin 2 → Nat) = fun _ => 0 := funext fun a => by fin_cases a <;> rfl
  refine Rows.enh_row I et tk hD (bOf i) _ ?_ _ ?_ _ ?_ _ ?_ _ ?_ _ ?_ _ ?_ s h
  · intro s e
    rw [Body.pay6_eq, View.ld_unit_zero (S := S512x128) hz2]; exact h6 s e
  · intro k h
    rw [Body.pay4_apply, View.ld_unit_zero (S := S5x768) hz2]; exact h3 k h
  · intro h
    rw [View.ld_unit_zero (S := S1x768) hz2]; exact h4 h
  · intro h
    rw [Body.pay5_eq, View.ld_unit_zero (S := S1x768) hz2]; exact h5 h
  · intro e
    rw [ld_row x1 offE i hoffE inbE e (0 : Fin 1)]; exact h1 i e
  · intro e
    rw [ld_row x2 offE i hoffE inbE e (0 : Fin 1)]; exact h2 i e
  · intro s h
    rw [ld_row x0 offH i hoffH inbH s h]; exact h0 i s h

include h7 in
/-- Row `i`'s pooled entity embeddings, from the same loads and the transposed count matrix. -/
theorem pool_leaf (i : Fin 4) (offE : Fin 3 → Nat) (hoffE : offE = ![i.val, 0, 0])
    (inbE : ∀ a, offE a + S1x128x1.size a ≤ S4x128x1.size a)
    (offH : Fin 3 → Nat) (hoffH : offH = ![i.val, 0, 0]) (inbH : ∀ a, offH a + S1x512x768.size a ≤ S4x512x768.size a)
    (e : Fin 128) (h : Fin 768) :
    Body.poolBlk (F := Ideal) (Gen.k0_pay7 (View.ld x7 r0_3))
        (Body.enhBlk (F := Ideal) (Gen.k0_pay6 (View.ld x6 r0_2))
          (Body.embBlk (F := Ideal) (Gen.k0_pay4 (View.ld x3 r0_0)) (View.ld x4 r0_1) (Gen.k0_pay5 (View.ld x5 r0_1))
            (iota .tc S128x5 32 [1] iota_S128x5_d1_w32) (View.ld x1 (Rect.unit offE S1x128x1.size inbE))
            (View.ld x2 (Rect.unit offE S1x128x1.size inbE)))
          (View.ld x0 (Rect.unit offH S1x512x768.size inbH))) (ix2 e h)
      = ((I.pool (bOf i) e h : ℝ) : EReal) := by
  have hz2 : (![0, 0] : Fin 2 → Nat) = fun _ => 0 := funext fun a => by fin_cases a <;> rfl
  refine Rows.pool_row I et tk hD (bOf i) _ ?_ _ ?_ _ ?_ _ ?_ _ ?_ _ ?_ _ ?_ _ ?_ e h
  · intro s e
    rw [Body.pay6_eq, View.ld_unit_zero (S := S512x128) hz2]; exact h6 s e
  · intro e s
    rw [Body.pay7_eq, View.ld_unit_zero (S := S128x512) hz2]; exact h7 e s
  · intro k h
    rw [Body.pay4_apply, View.ld_unit_zero (S := S5x768) hz2]; exact h3 k h
  · intro h
    rw [View.ld_unit_zero (S := S1x768) hz2]; exact h4 h
  · intro h
    rw [Body.pay5_eq, View.ld_unit_zero (S := S1x768) hz2]; exact h5 h
  · intro e
    rw [ld_row x1 offE i hoffE inbE e (0 : Fin 1)]; exact h1 i e
  · intro e
    rw [ld_row x2 offE i hoffE inbE e (0 : Fin 1)]; exact h2 i e
  · intro s h
    rw [ld_row x0 offH i hoffH inbH s h]; exact h0 i s h

/-- The enhanced-state store of row `i`, as a piece of the [4, 512, 768] output block: at its local index it holds the
    block function at the index its rectangle places it. -/
theorem enh_piece (i : Fin 4) (offE : Fin 3 → Nat) (hoffE : offE = ![i.val, 0, 0])
    (inbE : ∀ a, offE a + S1x128x1.size a ≤ S4x128x1.size a)
    (offH : Fin 3 → Nat) (hoffH : offH = ![i.val, 0, 0]) (inbH : ∀ a, offH a + S1x512x768.size a ≤ S4x512x768.size a)
    (x : S1x512x768.Idx) :
    shapeCast S1x512x768 (Body.enhBlk (F := Ideal) (Gen.k0_pay6 (View.ld x6 r0_2))
        (Body.embBlk (F := Ideal) (Gen.k0_pay4 (View.ld x3 r0_0)) (View.ld x4 r0_1) (Gen.k0_pay5 (View.ld x5 r0_1))
          (iota .tc S128x5 32 [1] iota_S128x5_d1_w32) (View.ld x1 (Rect.unit offE S1x128x1.size inbE))
          (View.ld x2 (Rect.unit offE S1x128x1.size inbE)))
        (View.ld x0 (Rect.unit offH S1x512x768.size inbH))) shapeCasts_S512x768_S1x512x768 x
      = (fun y : S4x512x768.Idx => ((I.enh (bOf (y 0)) (y 1) (y 2) : ℝ) : EReal))
          ((Rect.unit (s := S4x512x768) offH S1x512x768.size inbH).emb x) := by
  obtain ⟨z, s, h, rfl⟩ : ∃ (z : Fin 1) (s : Fin 512) (h : Fin 768), x = ix3 z s h := ⟨x 0, x 1, x 2, eq_ix3 x⟩
  rw [addUnit_apply3, enh_leaf I et tk hD bOf x0 x1 x2 x3 x4 x5 x6 h0 h1 h2 h3 h4 h5 h6 i offE hoffE inbE offH hoffH inbH s h]
  subst hoffH
  have e0 : ((Rect.unit (s := S4x512x768) ![i.val, 0, 0] S1x512x768.size inbH).emb (ix3 z s h) : S4x512x768.Idx) = ix3 i s h := by
    refine funext fun a => Fin.ext ?_
    match a with
    | ⟨0, _⟩ => show i.val + 1 * z.val = i.val; have := z.isLt; omega
    | ⟨1, _⟩ => show 0 + 1 * s.val = s.val; omega
    | ⟨2, _⟩ => show 0 + 1 * h.val = h.val; omega
  rw [e0]

include h7 in
/-- The pooled store of row `i`, as a piece of the [4, 128, 768] output block. -/
theorem pool_piece (i : Fin 4) (offE : Fin 3 → Nat) (hoffE : offE = ![i.val, 0, 0])
    (inbE : ∀ a, offE a + S1x128x1.size a ≤ S4x128x1.size a)
    (offH : Fin 3 → Nat) (hoffH : offH = ![i.val, 0, 0]) (inbH : ∀ a, offH a + S1x512x768.size a ≤ S4x512x768.size a)
    (offP : Fin 3 → Nat) (hoffP : offP = ![i.val, 0, 0]) (inbP : ∀ a, offP a + S1x128x768.size a ≤ S4x128x768.size a)
    (x : S1x128x768.Idx) :
    shapeCast S1x128x768 (Body.poolBlk (F := Ideal) (Gen.k0_pay7 (View.ld x7 r0_3))
        (Body.enhBlk (F := Ideal) (Gen.k0_pay6 (View.ld x6 r0_2))
          (Body.embBlk (F := Ideal) (Gen.k0_pay4 (View.ld x3 r0_0)) (View.ld x4 r0_1) (Gen.k0_pay5 (View.ld x5 r0_1))
            (iota .tc S128x5 32 [1] iota_S128x5_d1_w32) (View.ld x1 (Rect.unit offE S1x128x1.size inbE))
            (View.ld x2 (Rect.unit offE S1x128x1.size inbE)))
          (View.ld x0 (Rect.unit offH S1x512x768.size inbH)))) shapeCasts_S128x768_S1x128x768 x
      = (fun y : S4x128x768.Idx => ((I.pool (bOf (y 0)) (y 1) (y 2) : ℝ) : EReal))
          ((Rect.unit (s := S4x128x768) offP S1x128x768.size inbP).emb x) := by
  obtain ⟨z, e, h, rfl⟩ : ∃ (z : Fin 1) (e : Fin 128) (h : Fin 768), x = ix3 z e h := ⟨x 0, x 1, x 2, eq_ix3 x⟩
  rw [addUnit_apply3, pool_leaf I et tk hD bOf x0 x1 x2 x3 x4 x5 x6 x7 h0 h1 h2 h3 h4 h5 h6 h7 i offE hoffE inbE offH hoffH inbH e h]
  subst hoffP
  have e0 : ((Rect.unit (s := S4x128x768) ![i.val, 0, 0] S1x128x768.size inbP).emb (ix3 z e h) : S4x128x768.Idx) = ix3 i e h := by
    refine funext fun a => Fin.ext ?_
    match a with
    | ⟨0, _⟩ => show i.val + 1 * z.val = i.val; have := z.isLt; omega
    | ⟨1, _⟩ => show 0 + 1 * e.val = e.val; omega
    | ⟨2, _⟩ => show 0 + 1 * h.val = h.val; omega
  rw [e0]

/-- WHAT THE BODY LEAVES in the first output block, at (i, s, h): the enhanced state of batch row `bOf i`. Its four
    stores are four pieces of one function of the block index. -/
theorem out8_apply (i : Fin 4) (s : Fin 512) (h : Fin 768) :
    out0_8 x0 x1 x2 x3 x4 x5 x6 x7 (ix3 i s h) = ((I.enh (bOf i) s h : ℝ) : EReal) := by
  unfold out0_8
  rw [Body.enh_row0, Body.enh_row1, Body.enh_row2, Body.enh_row3]
  rw [View.canon_apply_of_pieces (fun y : S4x512x768.Idx => ((I.enh (bOf (y 0)) (y 1) (y 2) : ℝ) : EReal)) _ ?_
    (ix3 i s h) (cover0_8 _ _ _ _ _)]
  intro p hp x
  simp only [List.mem_cons, List.mem_nil_iff, or_false] at hp
  rcases hp with rfl | rfl | rfl | rfl
  · exact enh_piece I et tk hD bOf x0 x1 x2 x3 x4 x5 x6 h0 h1 h2 h3 h4 h5 h6 (3 : Fin 4) ![3, 0, 0] rfl _ ![3, 0, 0] rfl _ x
  · exact enh_piece I et tk hD bOf x0 x1 x2 x3 x4 x5 x6 h0 h1 h2 h3 h4 h5 h6 (2 : Fin 4) ![2, 0, 0] rfl _ ![2, 0, 0] rfl _ x
  · exact enh_piece I et tk hD bOf x0 x1 x2 x3 x4 x5 x6 h0 h1 h2 h3 h4 h5 h6 (1 : Fin 4) ![1, 0, 0] rfl _ ![1, 0, 0] rfl _ x
  · exact enh_piece I et tk hD bOf x0 x1 x2 x3 x4 x5 x6 h0 h1 h2 h3 h4 h5 h6 (0 : Fin 4) ![0, 0, 0] rfl _ ![0, 0, 0] rfl _ x

include h7 in
/-- WHAT THE BODY LEAVES in the second output block, at (i, e, h): the pooled embedding of batch row `bOf i`. -/
theorem out9_apply (i : Fin 4) (e : Fin 128) (h : Fin 768) :
    out0_9 x0 x1 x2 x3 x4 x5 x6 x7 (ix3 i e h) = ((I.pool (bOf i) e h : ℝ) : EReal) := by
  unfold out0_9
  rw [Body.pool_row0, Body.pool_row1, Body.pool_row2, Body.pool_row3]
  rw [View.canon_apply_of_pieces (fun y : S4x128x768.Idx => ((I.pool (bOf (y 0)) (y 1) (y 2) : ℝ) : EReal)) _ ?_
    (ix3 i e h) (cover0_9 _ _ _ _ _)]
  intro p hp x
  simp only [List.mem_cons, List.mem_nil_iff, or_false] at hp
  rcases hp with rfl | rfl | rfl | rfl
  · exact pool_piece I et tk hD bOf x0 x1 x2 x3 x4 x5 x6 x7 h0 h1 h2 h3 h4 h5 h6 h7 (3 : Fin 4) ![3, 0, 0] rfl _ ![3, 0, 0] rfl _ ![3, 0, 0] rfl inb_S4x128x768_S1x128x768_3_0_0 x
  · exact pool_piece I et tk hD bOf x0 x1 x2 x3 x4 x5 x6 x7 h0 h1 h2 h3 h4 h5 h6 h7 (2 : Fin 4) ![2, 0, 0] rfl _ ![2, 0, 0] rfl _ ![2, 0, 0] rfl inb_S4x128x768_S1x128x768_2_0_0 x
  · exact pool_piece I et tk hD bOf x0 x1 x2 x3 x4 x5 x6 x7 h0 h1 h2 h3 h4 h5 h6 h7 (1 : Fin 4) ![1, 0, 0] rfl _ ![1, 0, 0] rfl _ ![1, 0, 0] rfl inb_S4x128x768_S1x128x768_1_0_0 x
  · exact pool_piece I et tk hD bOf x0 x1 x2 x3 x4 x5 x6 x7 h0 h1 h2 h3 h4 h5 h6 h7 (0 : Fin 4) ![0, 0, 0] rfl _ ![0, 0, 0] rfl _ ![0, 0, 0] rfl inb_S4x128x768_S1x128x768_0_0_0 x

end Leaves

/-! ## What point `t` writes back, the cover, and the arrays after the run -/

/-- The batch row that row `i` of a block staged at point `t` is: 4t + i. -/
def rowAt (t : Fin cfg0.N) (i : Fin 4) : Fin 64 :=
  ⟨4 * t.val + i.val, by have h1 : t.val < 16 := t.isLt; have h2 := i.isLt; omega⟩

section Written

variable (c : Dev nD) (ty : Fin 64 → Fin 128 → Fin 5) (tok : Fin 128 → Fin 4 → Fin 512)
  (hD : Dom (inp m c ty tok) (m ((c : Thread nD τ).loc main_arg1)) (m ((c : Thread nD τ).loc main_arg3)))

include hD

/-- WHAT POINT `t` WRITES BACK to the first result is block `t` of the enhanced hidden states. -/
theorem flushed8_eq (t : Fin cfg0.N) :
    (dats m 0 c).flushed 8 t = ((cfg0.win 8).blk t).view.read (Elt Ideal) (inp m c ty tok).G0 := by
  rw [Value.flushed8]
  have key : ∀ y : S4x512x768.Idx,
      out0_8 (hblk m c t) (eblk m c t) (cblk m c t) (tblk m c t) (wblk m c t) (bblk m c t) (Mblk m c t) (Mtblk m c t) y
        = (inp m c ty tok).G0 (((cfg0.win 8).blk t).view.emb y) := by
    intro y
    obtain ⟨i, s, h, rfl⟩ : ∃ (i : Fin 4) (s : Fin 512) (h : Fin 768), y = ix3 i s h := ⟨y 0, y 1, y 2, eq_ix3 y⟩
    rw [out8_apply (inp m c ty tok) _ _ hD (rowAt t) (hblk m c t) (eblk m c t) (cblk m c t) (tblk m c t) (wblk m c t)
      (bblk m c t) (Mblk m c t) (Mtblk m c t)
      (fun i s h => hblk_apply m c t i s h (rowAt t i) rfl) (fun i e => eblk_apply m c t i e (rowAt t i) rfl)
      (fun i e => cblk_apply m c t i e (rowAt t i) rfl) (tblk_apply m c t) (wblk_apply m c t) (bblk_apply m c t)
      (fun s e => Mblk_apply m c t tok hD.tok_eq s e) i s h]
    have hx : ((cfg0.win 8).blk t).view.emb (ix3 i s h) = (ix3 (rowAt t i) s h : S64x512x768.Idx) := by
      refine funext fun a => Fin.ext ?_
      obtain ⟨-, -, -, -, -, -, -, -, ⟨e0, e1, e2⟩, -⟩ := idx_facts t
      match a with
      | ⟨0, _⟩ => show win0_8.index t (0 : Fin 3) * 4 + 1 * i.val = 4 * t.val + i.val; omega
      | ⟨1, _⟩ => show win0_8.index t (1 : Fin 3) * 512 + 1 * s.val = s.val; omega
      | ⟨2, _⟩ => show win0_8.index t (2 : Fin 3) * 768 + 1 * h.val = h.val; omega
    rw [hx]
    rfl
  funext j
  exact key j

/-- WHAT POINT `t` WRITES BACK to the second result is block `t` of the pooled entity embeddings. -/
theorem flushed9_eq (t : Fin cfg0.N) :
    (dats m 0 c).flushed 9 t = ((cfg0.win 9).blk t).view.read (Elt Ideal) (inp m c ty tok).G1 := by
  rw [Value.flushed9]
  have key : ∀ y : S4x128x768.Idx,
      out0_9 (hblk m c t) (eblk m c t) (cblk m c t) (tblk m c t) (wblk m c t) (bblk m c t) (Mblk m c t) (Mtblk m c t) y
        = (inp m c ty tok).G1 (((cfg0.win 9).blk t).view.emb y) := by
    intro y
    obtain ⟨i, e, h, rfl⟩ : ∃ (i : Fin 4) (e : Fin 128) (h : Fin 768), y = ix3 i e h := ⟨y 0, y 1, y 2, eq_ix3 y⟩
    rw [out9_apply (inp m c ty tok) _ _ hD (rowAt t) (hblk m c t) (eblk m c t) (cblk m c t) (tblk m c t) (wblk m c t)
      (bblk m c t) (Mblk m c t) (Mtblk m c t)
      (fun i s h => hblk_apply m c t i s h (rowAt t i) rfl) (fun i e => eblk_apply m c t i e (rowAt t i) rfl)
      (fun i e => cblk_apply m c t i e (rowAt t i) rfl) (tblk_apply m c t) (wblk_apply m c t) (bblk_apply m c t)
      (fun s e => Mblk_apply m c t tok hD.tok_eq s e) (fun e s => Mtblk_apply m c t tok hD.tok_eq e s) i e h]
    have hx : ((cfg0.win 9).blk t).view.emb (ix3 i e h) = (ix3 (rowAt t i) e h : S64x128x768.Idx) := by
      refine funext fun a => Fin.ext ?_
      obtain ⟨-, -, -, -, -, -, -, -, -, ⟨e0, e1, e2⟩⟩ := idx_facts t
      match a with
      | ⟨0, _⟩ => show win0_9.index t (0 : Fin 3) * 4 + 1 * i.val = 4 * t.val + i.val; omega
      | ⟨1, _⟩ => show win0_9.index t (1 : Fin 3) * 128 + 1 * e.val = e.val; omega
      | ⟨2, _⟩ => show win0_9.index t (2 : Fin 3) * 768 + 1 * h.val = h.val; omega
    rw [hx]
    rfl
  funext j
  exact key j

omit hD

/-- An index of the first result is in point `t`'s block iff each coordinate is in the block's range on its axis. -/
theorem mem_blk8 (t : Fin cfg0.N) (i : S64x512x768.Idx) :
    i ∈ ((cfg0.win 8).blk t).view.set ↔ ∀ a : Fin 3, win0_8.index t a * S4x512x768.size a ≤ (i a).val
      ∧ (i a).val < win0_8.index t a * S4x512x768.size a + S4x512x768.size a := by
  show i ∈ ((View.whole main_v4_0).slice (win0_8.rect t)).set ↔ _
  rw [View.set_slice_whole, Rect.mem_set_unit]
  exact Iff.rfl

theorem mem_blk9 (t : Fin cfg0.N) (i : S64x128x768.Idx) :
    i ∈ ((cfg0.win 9).blk t).view.set ↔ ∀ a : Fin 3, win0_9.index t a * S4x128x768.size a ≤ (i a).val
      ∧ (i a).val < win0_9.index t a * S4x128x768.size a + S4x128x768.size a := by
  show i ∈ ((View.whole main_v4_1).slice (win0_9.rect t)).set ↔ _
  rw [View.set_slice_whole, Rect.mem_set_unit]
  exact Iff.rfl

/-- Every entry of the first result is in the block of the point that stages its batch row: point (row / 4). -/
theorem cover8 (i : S64x512x768.Idx) :
    ∃ t : Fin cfg0.N, (cfg0.win 8).flush t = true ∧ i ∈ ((cfg0.win 8).blk t).view.set := by
  have hi0 : (i 0).val < 64 := (i 0).isLt
  have hi1 : (i 1).val < 512 := (i 1).isLt
  have hi2 : (i 2).val < 768 := (i 2).isLt
  have ht : (i 0).val / 4 < 16 := by omega
  refine ⟨⟨(i 0).val / 4, ht⟩, flush0_8 _, ?_⟩
  rw [mem_blk8]
  obtain ⟨-, -, -, -, -, -, -, -, ⟨e0, e1, e2⟩, -⟩ := idx_facts ⟨(i 0).val / 4, ht⟩
  have e0' : win0_8.index ⟨(i 0).val / 4, ht⟩ (0 : Fin 3) = (i 0).val / 4 := e0
  intro a
  match a with
  | ⟨0, _⟩ =>
    show win0_8.index ⟨(i 0).val / 4, ht⟩ (0 : Fin 3) * 4 ≤ (i 0).val
      ∧ (i 0).val < win0_8.index ⟨(i 0).val / 4, ht⟩ (0 : Fin 3) * 4 + 4
    omega
  | ⟨1, _⟩ =>
    show win0_8.index ⟨(i 0).val / 4, ht⟩ (1 : Fin 3) * 512 ≤ (i 1).val
      ∧ (i 1).val < win0_8.index ⟨(i 0).val / 4, ht⟩ (1 : Fin 3) * 512 + 512
    omega
  | ⟨2, _⟩ =>
    show win0_8.index ⟨(i 0).val / 4, ht⟩ (2 : Fin 3) * 768 ≤ (i 2).val
      ∧ (i 2).val < win0_8.index ⟨(i 0).val / 4, ht⟩ (2 : Fin 3) * 768 + 768
    omega

/-- The same for the second result. -/
theorem cover9 (i : S64x128x768.Idx) :
    ∃ t : Fin cfg0.N, (cfg0.win 9).flush t = true ∧ i ∈ ((cfg0.win 9).blk t).view.set := by
  have hi0 : (i 0).val < 64 := (i 0).isLt
  have hi1 : (i 1).val < 128 := (i 1).isLt
  have hi2 : (i 2).val < 768 := (i 2).isLt
  have ht : (i 0).val / 4 < 16 := by omega
  refine ⟨⟨(i 0).val / 4, ht⟩, flush0_9 _, ?_⟩
  rw [mem_blk9]
  obtain ⟨-, -, -, -, -, -, -, -, -, ⟨e0, e1, e2⟩⟩ := idx_facts ⟨(i 0).val / 4, ht⟩
  have e0' : win0_9.index ⟨(i 0).val / 4, ht⟩ (0 : Fin 3) = (i 0).val / 4 := e0
  intro a
  match a with
  | ⟨0, _⟩ =>
    show win0_9.index ⟨(i 0).val / 4, ht⟩ (0 : Fin 3) * 4 ≤ (i 0).val
      ∧ (i 0).val < win0_9.index ⟨(i 0).val / 4, ht⟩ (0 : Fin 3) * 4 + 4
    omega
  | ⟨1, _⟩ =>
    show win0_9.index ⟨(i 0).val / 4, ht⟩ (1 : Fin 3) * 128 ≤ (i 1).val
      ∧ (i 1).val < win0_9.index ⟨(i 0).val / 4, ht⟩ (1 : Fin 3) * 128 + 128
    omega
  | ⟨2, _⟩ =>
    show win0_9.index ⟨(i 0).val / 4, ht⟩ (2 : Fin 3) * 768 ≤ (i 2).val
      ∧ (i 2).val < win0_9.index ⟨(i 0).val / 4, ht⟩ (2 : Fin 3) * 768 + 768
    omega

include hD

/-- THE FIRST RESULT after the run is the enhanced hidden states. -/
theorem final8 : (dats m 0 c).arrAt 8 cfg0.N = (inp m c ty tok).G0 :=
  (dats m 0 c).arrAt_eq_of_cover 8 _ (fun t _ => flushed8_eq m c ty tok hD t) cover8

/-- THE SECOND RESULT after the run is the pooled entity embeddings. -/
theorem final9 : (dats m 0 c).arrAt 9 cfg0.N = (inp m c ty tok).G1 :=
  (dats m 0 c).arrAt_eq_of_cover 9 _ (fun t _ => flushed9_eq m c ty tok hD t) cover9

end Written

/-! ## The run, read -/

/-- Every weakly fair execution of the idealized kernel ends with the two results at the specification's functions of
    the inputs as launched, the arguments unchanged. -/
theorem run (ty : Dev nD → Fin 64 → Fin 128 → Fin 5) (tok : Dev nD → Fin 128 → Fin 4 → Fin 512)
    (hD : ∀ c : Dev nD, Dom (inp m c (ty c) (tok c)) (m ((c : Thread nD τ).loc main_arg1)) (m ((c : Thread nD τ).loc main_arg3))) :
    θ_run defs (onTc (τ := τ) (main (F := Ideal))) ⟨m, fun _ => 0, ρ⟩ fun r => ∀ c : Dev nD,
      r.2.mem ((c : Thread nD τ).loc main_v4_0) = (inp m c (ty c) (tok c)).G0
      ∧ r.2.mem ((c : Thread nD τ).loc main_v4_1) = (inp m c (ty c) (tok c)).G1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c (ty c) (tok c) (hD c)),
      (h c).2.1.trans (final9 m c (ty c) (tok c) (hD c)), (h c).2.2⟩)
    (Value.run_blocks m ρ)

end Cert.KernelIdeal.Blocks

end
-- ==== Proof.LibGather3.lean ====
/-
  A gather of whole rows read at an index, for a rank-3 array of row numbers.

  x[idx] over the rows of an [N, K] table, with the row numbers kept as an [A, M, 1] array (the last axis is the
  one-component index vector): result entry (a, e, k) is the table's entry k of the row whose number is start index
  (a, e), read as a signed integer and clamped into the table, that is into [0, N - 1].
-/
import Idealize.ShloMosaic.PureOps.Ideal
import Idealize.ShloMosaic.Lib.ValueIdx

noncomputable section

namespace Cert.LibGather3

open Idealize.ShloMosaic Idealize.ShloMosaic.ValueIdx

/-- Entry i of a list known to be l' is entry i of l'. -/
theorem getElem_of_eq {α : Type} {l l' : List α} (h : l = l') (i i' : Nat) (hi : i < l.length) (hii : i = i')
    (hi' : i' < l'.length) : l[i] = l'[i'] := by
  subst h; subst hii; rfl

section Rows3
variable {N A M K w : Nat} (d : GatherDims ⟨2, ![N, K]⟩ ⟨3, ![A, M, 1]⟩ ⟨3, ![A, M, K]⟩)

/-- Result entry (a, e, k) reads its one start-index component at entry (a, e, 0) of the array of row numbers:
    the two batch coordinates are carried over and the index-vector axis holds the component's number, 0. -/
theorem rows3_siIdx (hoff : d.offsetDims = [2]) (hivd : d.indexVectorDim = 2)
    (a : Fin A) (e : Fin M) (k : Fin K) (c : Fin d.startIndexMap.length) (hc : c.val = 0) :
    d.siIdx (ix3 a e k) c = ix3 a e (0 : Fin 1) := by
  have hbd : d.batchDims = [0, 1] := by
    show Shape.kept _ d.offsetDims = _
    rw [hoff]; rfl
  have hsik : d.siKept = [0, 1] := by
    show (List.finRange 3).filter (fun b => decide (b.val ≠ d.indexVectorDim)) = _
    rw [hivd]; rfl
  funext b
  match b with
  | ⟨0, _⟩ =>
    unfold GatherDims.siIdx
    rw [dif_neg (by rw [hivd]; simp)]
    unfold GatherDims.siCoord
    apply Fin.ext
    simp only [Fin.val_cast]
    rw [getElem_of_eq hbd _ 0 _ (by rw [hsik]; rfl) (by simp)]
    rfl
  | ⟨1, _⟩ =>
    unfold GatherDims.siIdx
    rw [dif_neg (by rw [hivd]; simp)]
    unfold GatherDims.siCoord
    apply Fin.ext
    simp only [Fin.val_cast]
    rw [getElem_of_eq hbd _ 1 _ (by rw [hsik]; rfl) (by simp)]
    rfl
  | ⟨2, _⟩ =>
    unfold GatherDims.siIdx
    rw [dif_pos (by rw [hivd])]
    apply Fin.ext
    exact hc

end Rows3

/-- A gather of whole rows of an [N, K] operand at an [A, M, 1] array of row numbers (offset axis 2, collapsed
    axis 0, the one start-index component naming operand axis 0, slices 1 × K), read at entry (a, e, k): the
    operand's entry k of the row at the start index read signed and clamped into [0, N - 1]. -/
theorem gather_rows3_apply {α : Type} {N A M K w : Nat}
    (d : GatherDims ⟨2, ![N, K]⟩ ⟨3, ![A, M, 1]⟩ ⟨3, ![A, M, K]⟩)
    (hoff : d.offsetDims = [2]) (hcoll : d.collapsedSliceDims = [0]) (hob : d.operandBatchingDims = [])
    (hsim : d.startIndexMap = [0]) (hivd : d.indexVectorDim = 2) (hss : d.sliceSizes = ![1, K])
    (x : (⟨2, ![N, K]⟩ : Shape).Idx → α) (idx : IVec ⟨3, ![A, M, 1]⟩ w) (a : Fin A) (e : Fin M) (k : Fin K)
    (hN : 0 < N) :
    Host.gather d x idx (ix3 a e k)
      = x (ix2 ⟨min (idx (ix3 a e (0 : Fin 1))).toInt.toNat (N - 1), by omega⟩ k) := by
  unfold Host.gather
  congr 1
  funext c
  apply Fin.ext
  have hsk : d.sKept = [1] := by
    show Shape.kept _ (d.collapsedSliceDims ++ d.operandBatchingDims) = _
    rw [hcoll, hob]; rfl
  match c with
  | ⟨0, _⟩ =>
    -- axis 0 is collapsed and carries the start index: clamped start, no batching or offset coordinate
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    show d.start (ix3 a e k) idx 0 + d.batchCoord (ix3 a e k) 0 + d.offCoord (ix3 a e k) 0 = _
    rw [GatherDims.batchCoord_eq_zero _ _ _ hb, GatherDims.offCoord_eq_zero _ _ _ hk]
    simp only [Nat.add_zero]
    unfold GatherDims.start
    rw [dif_pos hm, hsl, rows3_siIdx d hoff hivd a e k _ (by show List.idxOf (0 : Fin 2) d.startIndexMap = 0; rw [hsim]; simp)]
    rfl
  | ⟨1, _⟩ =>
    -- axis 1 is the offset axis: start 0, no batching coordinate, the result's coordinate 2
    have hb : (1 : Fin 2) ∉ d.operandBatchingDims := by rw [hob]; exact List.not_mem_nil
    have hk : (1 : Fin 2) ∈ d.sKept := by rw [hsk]; exact List.mem_singleton.mpr rfl
    have hm : (1 : Fin 2) ∉ d.startIndexMap := by rw [hsim]; simp
    show d.start (ix3 a e k) idx 1 + d.batchCoord (ix3 a e k) 1 + d.offCoord (ix3 a e k) 1 = k.val
    rw [GatherDims.batchCoord_eq_zero _ _ _ hb]
    unfold GatherDims.start GatherDims.offCoord
    rw [dif_neg hm, dif_pos hk, getElem_of_eq hoff _ 0 _ (by rw [hsk]; rfl) (by simp)]
    simp only [Nat.add_zero, Nat.zero_add]
    rfl

end Cert.LibGather3

end
-- ==== Proof.LibGather4.lean ====
/-
  A gather of whole slabs along the MIDDLE axis of a rank-3 array, for a rank-3 array of positions.

  The operand is [A, R, C]; the positions are kept as an [E, T, 1] array (the last axis is the one-component index
  vector); the result is [A, E, T, C]: entry (a, e, t, c) is the operand's entry (a, p, c) where p is start index
  (e, t), read as a signed integer and clamped into [0, R - 1].
-/
import Idealize.ShloMosaic.PureOps.Ideal
import Idealize.ShloMosaic.Lib.ValueIdx

noncomputable section

namespace Cert.LibGather4

open Idealize.ShloMosaic Idealize.ShloMosaic.ValueIdx

/-- Entry i of a list known to be l' is entry i of l'. -/
theorem getElem_of_eq {α : Type} {l l' : List α} (h : l = l') (i i' : Nat) (hi : i < l.length) (hii : i = i')
    (hi' : i' < l'.length) : l[i] = l'[i'] := by
  subst h; subst hii; rfl

section Mid4
variable {A R C E T w : Nat} (d : GatherDims ⟨3, ![A, R, C]⟩ ⟨3, ![E, T, 1]⟩ ⟨4, ![A, E, T, C]⟩)

/-- Result entry (a, e, t, c) reads its one start-index component at entry (e, t, 0) of the array of positions: the
    result's two batch axes, 1 and 2, give the first two coordinates in order, and the index-vector axis holds the
    component's number, 0. -/
theorem mid4_siIdx (hoff : d.offsetDims = [0, 3]) (hivd : d.indexVectorDim = 2)
    (a : Fin A) (e : Fin E) (t : Fin T) (c : Fin C) (k : Fin d.startIndexMap.length) (hk : k.val = 0) :
    d.siIdx (ix4 a e t c) k = ix3 e t (0 : Fin 1) := by
  have hbd : d.batchDims = [1, 2] := by
    show Shape.kept _ d.offsetDims = _
    rw [hoff]; rfl
  have hsik : d.siKept = [0, 1] := by
    show (List.finRange 3).filter (fun b => decide (b.val ≠ d.indexVectorDim)) = _
    rw [hivd]; rfl
  funext b
  match b with
  | ⟨0, _⟩ =>
    unfold GatherDims.siIdx
    rw [dif_neg (by rw [hivd]; simp)]
    unfold GatherDims.siCoord
    apply Fin.ext
    simp only [Fin.val_cast]
    rw [getElem_of_eq hbd _ 0 _ (by rw [hsik]; rfl) (by simp)]
    rfl
  | ⟨1, _⟩ =>
    unfold GatherDims.siIdx
    rw [dif_neg (by rw [hivd]; simp)]
    unfold GatherDims.siCoord
    apply Fin.ext
    simp only [Fin.val_cast]
    rw [getElem_of_eq hbd _ 1 _ (by rw [hsik]; rfl) (by simp)]
    rfl
  | ⟨2, _⟩ =>
    unfold GatherDims.siIdx
    rw [dif_pos (by rw [hivd])]
    apply Fin.ext
    exact hk

end Mid4

/-- THE GATHER ALONG THE MIDDLE AXIS READ AT (a, e, t, c): offset axes 0 and 3, collapsed operand axis 1 named by the
    one start-index component, slices A × 1 × C. The result's entry is the operand's entry (a, p, c), where p is the
    start index at (e, t), read signed and clamped into [0, R - 1]: the first and last coordinates pass through the
    two offset axes, and the middle one is the clamped position. -/
theorem gather_mid4_apply {α : Type} {A R C E T w : Nat}
    (d : GatherDims ⟨3, ![A, R, C]⟩ ⟨3, ![E, T, 1]⟩ ⟨4, ![A, E, T, C]⟩)
    (hoff : d.offsetDims = [0, 3]) (hcoll : d.collapsedSliceDims = [1]) (hob : d.operandBatchingDims = [])
    (hsim : d.startIndexMap = [1]) (hivd : d.indexVectorDim = 2) (hss : d.sliceSizes = ![A, 1, C])
    (x : (⟨3, ![A, R, C]⟩ : Shape).Idx → α) (idx : IVec ⟨3, ![E, T, 1]⟩ w)
    (a : Fin A) (e : Fin E) (t : Fin T) (c : Fin C) (hR : 0 < R) :
    Host.gather d x idx (ix4 a e t c)
      = x (ix3 a ⟨min (idx (ix3 e t (0 : Fin 1))).toInt.toNat (R - 1), by omega⟩ c) := by
  unfold Host.gather
  congr 1
  funext p
  apply Fin.ext
  have hsk : d.sKept = [0, 2] := by
    show Shape.kept _ (d.collapsedSliceDims ++ d.operandBatchingDims) = _
    rw [hcoll, hob]; rfl
  match p with
  | ⟨0, _⟩ =>
    -- axis 0 is the first offset axis: start 0, no batching coordinate, the result's coordinate 0
    have hb : (0 : Fin 3) ∉ d.operandBatchingDims := by rw [hob]; exact List.not_mem_nil
    have hk : (0 : Fin 3) ∈ d.sKept := by rw [hsk]; simp
    have hm : (0 : Fin 3) ∉ d.startIndexMap := by rw [hsim]; simp
    show d.start (ix4 a e t c) idx 0 + d.batchCoord (ix4 a e t c) 0 + d.offCoord (ix4 a e t c) 0 = a.val
    rw [GatherDims.batchCoord_eq_zero _ _ _ hb]
    unfold GatherDims.start GatherDims.offCoord
    rw [dif_neg hm, dif_pos hk, getElem_of_eq hoff _ 0 _ (by rw [hsk]; rfl) (by simp)]
    simp only [Nat.add_zero, Nat.zero_add]
    rfl
  | ⟨1, _⟩ =>
    -- axis 1 is collapsed and carries the start index: clamped start, no batching or offset coordinate
    have hb : (1 : Fin 3) ∉ d.operandBatchingDims := by rw [hob]; exact List.not_mem_nil
    have hk : (1 : Fin 3) ∉ d.sKept := by rw [hsk]; simp
    have hm : (1 : Fin 3) ∈ d.startIndexMap := by rw [hsim]; exact List.mem_singleton.mpr rfl
    have hsl : d.sliceSizes 1 = 1 := by rw [hss]; rfl
    show d.start (ix4 a e t c) idx 1 + d.batchCoord (ix4 a e t c) 1 + d.offCoord (ix4 a e t c) 1 = _
    rw [GatherDims.batchCoord_eq_zero _ _ _ hb, GatherDims.offCoord_eq_zero _ _ _ hk]
    simp only [Nat.add_zero]
    unfold GatherDims.start
    rw [dif_pos hm, hsl, mid4_siIdx d hoff hivd a e t c _
      (by show List.idxOf (1 : Fin 3) d.startIndexMap = 0; rw [hsim]; simp)]
    rfl
  | ⟨2, _⟩ =>
    -- axis 2 is the second offset axis: start 0, no batching coordinate, the result's coordinate 3
    have hb : (2 : Fin 3) ∉ d.operandBatchingDims := by rw [hob]; exact List.not_mem_nil
    have hk : (2 : Fin 3) ∈ d.sKept := by rw [hsk]; simp
    have hm : (2 : Fin 3) ∉ d.startIndexMap := by rw [hsim]; simp
    show d.start (ix4 a e t c) idx 2 + d.batchCoord (ix4 a e t c) 2 + d.offCoord (ix4 a e t c) 2 = c.val
    rw [GatherDims.batchCoord_eq_zero _ _ _ hb]
    unfold GatherDims.start GatherDims.offCoord
    rw [dif_neg hm, dif_pos hk, getElem_of_eq hoff _ 1 _ (by rw [hsk]; rfl) (by simp)]
    simp only [Nat.add_zero, Nat.zero_add]
    rfl

end Cert.LibGather4

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibScatterMid.lean ====
/-
  An accumulating scatter along the MIDDLE axis of a rank-3 array, read at an entry on the extended reals.

  The operand is [A, R, C]; the start indices are a column [N, 1] of positions on the middle axis; the updates are
  [A, N, C]. Update slab `k` (all of its [A, C] entries) is added, entry by entry, onto the operand's slab at the
  position its start index names, read signed and not clamped; a slab whose position is outside [0, R) is dropped.
  So entry (a, r, c) of the result is the operand's entry plus the sum, over the slabs `k` whose position is `r`, of
  update entry (a, k, c).
-/
import Idealize.ShloMosaic.PureOps.Ideal
import Idealize.ShloMosaic.Lib.ValueIdx
import proofs.«414526_j26903675142736_3_alg».proof.Proof.LibScatterRead

noncomputable section

open scoped BigOperators

namespace Cert.LibScatterMid

open Idealize.ShloMosaic Idealize.ShloMosaic.ValueIdx

/-- Entry i of a list known to be l' is entry i of l'. -/
theorem getElem_of_eq {α : Type} {l l' : List α} (h : l = l') (i i' : Nat) (hi : i < l.length) (hii : i = i')
    (hi' : i' < l'.length) : l[i] = l'[i'] := by
  subst h; subst hii; rfl

/-! ## Where update entry (a', k, c') lands -/

section Mid
variable {A R C N w : Nat} (d : ScatterDims ⟨3, ![A, R, C]⟩ ⟨2, ![N, 1]⟩ ⟨3, ![A, N, C]⟩)

/-- The operand's axes that are not inserted are the first and the last. -/
theorem mid_sKept (hiw : d.insertedWindowDims = [1]) : d.sKept = [0, 2] := by
  show Shape.kept _ d.insertedWindowDims = _
  rw [hiw]; rfl

/-- Update entry (a', k, c') reads its one start-index component at entry (k, 0) of the column of positions: the
    updates' one scatter axis, 1, gives the first coordinate, and the index-vector axis holds the component's
    number, 0. -/
theorem mid_siIdx (huw : d.updateWindowDims = [0, 2]) (hiv : d.indexVectorDim = 1)
    (a' : Fin A) (k : Fin N) (c' : Fin C) (q : Fin d.scatterDimsToOperandDims.length) (hq : q.val = 0) :
    d.siIdx (ix3 a' k c') q = ix2 k (0 : Fin 1) := by
  have hus : d.uScatter = [1] := by
    show Shape.kept _ d.updateWindowDims = _
    rw [huw]; rfl
  have hsik : d.siKept = [0] := by
    show (List.finRange 2).filter (fun b => decide (b.val ≠ d.indexVectorDim)) = _
    rw [hiv]; rfl
  funext b
  match b with
  | ⟨0, _⟩ =>
    unfold ScatterDims.siIdx
    rw [dif_neg (by rw [hiv]; simp)]
    unfold ScatterDims.siCoord
    apply Fin.ext
    simp only [Fin.val_cast]
    rw [getElem_of_eq hus _ 0 _ (by rw [hsik]; rfl) (by simp)]
    rfl
  | ⟨1, _⟩ =>
    unfold ScatterDims.siIdx
    rw [dif_pos (by rw [hiv])]
    apply Fin.ext
    exact hq

/-- On the first axis an update starts at zero: no start-index component names it. -/
theorem mid_start0 (hsd : d.scatterDimsToOperandDims = [1]) (idx : IVec ⟨2, ![N, 1]⟩ w)
    (j : (⟨3, ![A, N, C]⟩ : Shape).Idx) : d.start j idx 0 = 0 := by
  unfold ScatterDims.start
  exact dif_neg (by rw [hsd]; simp)

/-- On the middle axis update entry (a', k, c') starts at entry `k` of the column of positions, read signed. -/
theorem mid_start1 (huw : d.updateWindowDims = [0, 2]) (hsd : d.scatterDimsToOperandDims = [1])
    (hiv : d.indexVectorDim = 1) (idx : IVec ⟨2, ![N, 1]⟩ w) (a' : Fin A) (k : Fin N) (c' : Fin C) :
    d.start (ix3 a' k c') idx 1 = (idx (ix2 k (0 : Fin 1))).toInt := by
  have hm : (1 : Fin 3) ∈ d.scatterDimsToOperandDims := by rw [hsd]; exact List.mem_singleton.mpr rfl
  unfold ScatterDims.start
  rw [dif_pos hm, mid_siIdx d huw hiv a' k c' _
    (by show List.idxOf (1 : Fin 3) d.scatterDimsToOperandDims = 0; rw [hsd]; simp)]

/-- On the last axis an update starts at zero as well. -/
theorem mid_start2 (hsd : d.scatterDimsToOperandDims = [1]) (idx : IVec ⟨2, ![N, 1]⟩ w)
    (j : (⟨3, ![A, N, C]⟩ : Shape).Idx) : d.start j idx 2 = 0 := by
  unfold ScatterDims.start
  exact dif_neg (by rw [hsd]; simp)

/-- On the first axis the window coordinate is the update's own first coordinate. -/
theorem mid_window0 (huw : d.updateWindowDims = [0, 2]) (hiw : d.insertedWindowDims = [1])
    (a' : Fin A) (k : Fin N) (c' : Fin C) : d.window (ix3 a' k c') 0 = a'.val := by
  have hk : (0 : Fin 3) ∈ d.sKept := by rw [mid_sKept d hiw]; simp
  unfold ScatterDims.window
  rw [dif_pos hk, getElem_of_eq huw _ 0 _ (by rw [mid_sKept d hiw]; rfl) (by simp)]
  rfl

/-- The middle axis is inserted: no window coordinate there. -/
theorem mid_window1 (hiw : d.insertedWindowDims = [1]) (j : (⟨3, ![A, N, C]⟩ : Shape).Idx) :
    d.window j 1 = 0 := by
  unfold ScatterDims.window
  exact dif_neg (by rw [mid_sKept d hiw]; simp)

/-- On the last axis the window coordinate is the update's own last coordinate. -/
theorem mid_window2 (huw : d.updateWindowDims = [0, 2]) (hiw : d.insertedWindowDims = [1])
    (a' : Fin A) (k : Fin N) (c' : Fin C) : d.window (ix3 a' k c') 2 = c'.val := by
  have hk : (2 : Fin 3) ∈ d.sKept := by rw [mid_sKept d hiw]; simp
  unfold ScatterDims.window
  rw [dif_pos hk, getElem_of_eq huw _ 1 _ (by rw [mid_sKept d hiw]; rfl) (by simp)]
  rfl

/-- Update entry (a', k, c') lands on (a, r, c) exactly when a' is a, entry `k` of the positions, read signed, is
    `r`, and c' is c. -/
theorem mid_lands_iff (huw : d.updateWindowDims = [0, 2]) (hiw : d.insertedWindowDims = [1])
    (hsd : d.scatterDimsToOperandDims = [1]) (hiv : d.indexVectorDim = 1) (idx : IVec ⟨2, ![N, 1]⟩ w)
    (a' : Fin A) (k : Fin N) (c' : Fin C) (a : Fin A) (r : Fin R) (c : Fin C) :
    d.resultIdx? (ix3 a' k c') idx = some (ix3 a r c) ↔
      a' = a ∧ (idx (ix2 k (0 : Fin 1))).toInt = (r.val : Int) ∧ c' = c := by
  rw [Cert.SparseMM.resultIdx?_eq_some_iff]
  constructor
  · intro h
    have h0 := h 0
    have h1 := h 1
    have h2 := h 2
    rw [mid_start0 d hsd, mid_window0 d huw hiw, zero_add] at h0
    rw [mid_start1 d huw hsd hiv, mid_window1 d hiw, Nat.cast_zero, add_zero] at h1
    rw [mid_start2 d hsd, mid_window2 d huw hiw, zero_add] at h2
    exact ⟨Fin.ext (by exact_mod_cast h0), h1, Fin.ext (by exact_mod_cast h2)⟩
  · intro h p
    match p with
    | ⟨0, _⟩ =>
      show d.start (ix3 a' k c') idx 0 + (d.window (ix3 a' k c') 0 : Int) = (a.val : Int)
      rw [mid_start0 d hsd, mid_window0 d huw hiw, zero_add, h.1]
    | ⟨1, _⟩ =>
      show d.start (ix3 a' k c') idx 1 + (d.window (ix3 a' k c') 1 : Int) = (r.val : Int)
      rw [mid_start1 d huw hsd hiv, mid_window1 d hiw, Nat.cast_zero, add_zero]; exact h.2.1
    | ⟨2, _⟩ =>
      show d.start (ix3 a' k c') idx 2 + (d.window (ix3 a' k c') 2 : Int) = (c.val : Int)
      rw [mid_start2 d hsd, mid_window2 d huw hiw, zero_add, h.2.2]

end Mid

/-- THE SCATTER ALONG THE MIDDLE AXIS READ AT (a, r, c): the operand's entry plus the sum, over the update slabs `k`
    whose position (entry `k` of the column of start indices, read signed) is `r`, of update entry (a, k, c). The
    updates that land on (a, r, c) are exactly the entries (a, k, c) with that position, one for each such `k`. -/
theorem scatterAdd_mid_apply {A R C N w : Nat} {φ : FTy}
    (d : ScatterDims ⟨3, ![A, R, C]⟩ ⟨2, ![N, 1]⟩ ⟨3, ![A, N, C]⟩)
    (huw : d.updateWindowDims = [0, 2]) (hiw : d.insertedWindowDims = [1])
    (hsd : d.scatterDimsToOperandDims = [1]) (hiv : d.indexVectorDim = 1)
    (x : FVec Ideal ⟨3, ![A, R, C]⟩ φ) (idx : IVec ⟨2, ![N, 1]⟩ w) (upd : FVec Ideal ⟨3, ![A, N, C]⟩ φ)
    (a : Fin A) (r : Fin R) (c : Fin C) :
    Host.scatterAdd d x idx upd (ix3 a r c)
      = x (ix3 a r c) + ∑ k ∈ Finset.univ.filter (fun k : Fin N => (idx (ix2 k 0)).toInt = (r.val : Int)),
          upd (ix3 a k c) := by
  show Ideal.hostScatterAdd d x idx upd (ix3 a r c) = _
  unfold Ideal.hostScatterAdd
  refine congrArg (x (ix3 a r c) + ·) ?_
  have lands : ∀ j : (⟨3, ![A, N, C]⟩ : Shape).Idx, d.resultIdx? j idx = some (ix3 a r c) →
      (j 0 : Fin A) = a ∧ (idx (ix2 (j 1 : Fin N) (0 : Fin 1))).toInt = (r.val : Int) ∧ (j 2 : Fin C) = c := by
    intro j hj
    rw [eq_ix3 j] at hj
    exact (mid_lands_iff d huw hiw hsd hiv idx (j 0) (j 1) (j 2) a r c).mp hj
  refine Finset.sum_bij' (fun j _ => (j 1 : Fin N)) (fun k _ => ix3 a k c) ?_ ?_ ?_ ?_ ?_
  · intro j hj
    exact Finset.mem_filter.mpr ⟨Finset.mem_univ _, (lands j (Finset.mem_filter.mp hj).2).2.1⟩
  · intro k hk
    exact Finset.mem_filter.mpr ⟨Finset.mem_univ _,
      (mid_lands_iff d huw hiw hsd hiv idx a k c a r c).mpr ⟨rfl, (Finset.mem_filter.mp hk).2, rfl⟩⟩
  · intro j hj
    have hl := lands j (Finset.mem_filter.mp hj).2
    show ix3 a (j 1 : Fin N) c = j
    rw [← hl.1, ← hl.2.2]
    exact (eq_ix3 j).symm
  · intro k _
    rfl
  · intro j hj
    have hl := lands j (Finset.mem_filter.mp hj).2
    show upd j = upd (ix3 a (j 1 : Fin N) c)
    rw [← hl.1, ← hl.2.2]
    exact congrArg upd (eq_ix3 j)

end Cert.LibScatterMid

end
-- ==== Proof.RefValue.lean ====
/-
  The reference's two results are the two functions of the specification.
-/
import proofs.«414526_j26903675142736_3_alg».proof.Proof.Gen.ReferenceIdeal.Read
import proofs.«414526_j26903675142736_3_alg».proof.Proof.Spec
import proofs.«414526_j26903675142736_3_alg».proof.Proof.LibGather3
import proofs.«414526_j26903675142736_3_alg».proof.Proof.LibGather4
import proofs.«414526_j26903675142736_3_alg».proof.Proof.LibScatterMid

noncomputable section

open scoped BigOperators

namespace Cert.ReferenceIdeal.RefValue

open Cert.ReferenceIdeal Cert.ReferenceIdeal.Gen Cert.ReferenceIdeal.Read Cert.EntityPool
open Idealize.ShloMosaic Idealize.ShloMosaic.ValueIdx

/-! ## Words: a small natural number as a 32-bit word -/

/-- The 32-bit word of a natural number below 2^31, read as a signed integer, is that number. -/
theorem toInt_small (n : ℕ) (hn : n < 2 ^ 31) : (BitVec.ofNat 32 n).toInt = (n : Int) := by
  have h1 : (BitVec.ofNat 32 n).toNat = n := by
    rw [BitVec.toNat_ofNat]; omega
  rw [BitVec.toInt_eq_toNat_of_lt (by rw [h1]; omega), h1]

/-- The wrap of a negative index, "if x < 0 then x + c else x", leaves the word of a natural number below 2^31 alone:
    such a word is not negative. -/
theorem wrap_word (n : ℕ) (hn : n < 2 ^ 31) (c : BitVec 32) :
    Scalar.select (IntOp.cmpi .slt (BitVec.ofNat 32 n) 0#32) (IntOp.addi (BitVec.ofNat 32 n) c) (BitVec.ofNat 32 n)
      = BitVec.ofNat 32 n := by
  have h : IntOp.cmpi .slt (BitVec.ofNat 32 n) 0#32 = 0#1 := by
    unfold IntOp.cmpi
    have : (BitVec.ofNat 32 n).slt 0#32 = false := by
      unfold BitVec.slt
      rw [toInt_small n hn]
      simp
    simp only [this]
    rfl
  rw [h, select_zero]

/-- Such a word, read signed and clamped into [0, m], is the number itself when the number is at most m. -/
theorem clamp_word (n m : ℕ) (hn : n < 2 ^ 31) (hm : n ≤ m) :
    min (BitVec.ofNat 32 n).toInt.toNat m = n := by
  rw [toInt_small n hn, Int.toNat_natCast]
  exact Nat.min_eq_left hm

/-! ## The entity embeddings -/

/-- The row number the first gather reads for entity (b, e): the type word itself, the wrap doing nothing. -/
theorem type_word (et : IVec SBE 32) (b : Fin 64) (e : Fin 128) (n : ℕ) (hn : n < 2 ^ 31)
    (het : et (ix2 b e) = BitVec.ofNat 32 n) :
    val_main_v5 (F := Ideal) et (ix3 b e (0 : Fin 1)) = BitVec.ofNat 32 n := by
  rw [val_main_v5_apply]
  have hi : idx_main_v5 (ix3 b e (0 : Fin 1)) = ix2 b e := by
    funext a; match a with | ⟨0, _⟩ => rfl | ⟨1, _⟩ => rfl
  rw [hi, val_main_v4_apply, val_main_v1_apply, val_main_v3_apply, val_main_v0_apply, val_main_v2_apply,
    val_main_c_apply, val_main_c_0_apply, het]
  exact wrap_word n hn _

/-- The gathered table row: entry (b, e, h) of the first gather is the table's entry h of the row of the entity's
    type. -/
theorem type_row (et : IVec SBE 32) (tt : FVec Ideal STab .f32) (b : Fin 64) (e : Fin 128) (h : Fin 768) (n : Fin 5)
    (het : et (ix2 b e) = BitVec.ofNat 32 n.val) :
    val_main_v6 (F := Ideal) et tt (ix3 b e h) = tt (ix2 n h) := by
  unfold val_main_v6
  rw [Cert.LibGather3.gather_rows3_apply _ rfl rfl rfl rfl rfl rfl tt _ b e h (by norm_num)]
  congr 1
  have hw := type_word et b e n.val (by have := n.isLt; omega) het
  have hc : min (val_main_v5 (F := Ideal) et (ix3 b e (0 : Fin 1))).toInt.toNat (5 - 1) = n.val := by
    rw [hw]
    exact clamp_word n.val (5 - 1) (by have := n.isLt; omega) (by have := n.isLt; omega)
  funext a
  match a with
  | ⟨0, _⟩ => exact Fin.ext hc
  | ⟨1, _⟩ => rfl

/-- Confidence times weight plus bias, entry (b, e, h) of stage `main_v15`. -/
theorem affine_apply (ec : FVec Ideal SBE .f32) (cw : FVec Ideal SRow .f32) (cb : FVec Ideal SVec .f32)
    (b : Fin 64) (e : Fin 128) (h : Fin 768) :
    val_main_v15 (F := Ideal) ec cw cb (ix3 b e h) = ec (ix2 b e) * cw (ix2 0 h) + cb (ix1 h) := by
  rw [val_main_v15_apply, val_main_v12_apply, val_main_v10_apply, val_main_v7_apply, val_main_v11_apply,
    val_main_v9_apply, val_main_v8_apply, val_main_v14_apply, val_main_v13_apply, Ideal.addf_def, Ideal.mulf_def]
  have h1 : idx_main_v7 (idx_main_v10 (ix3 b e h)) = ix2 b e := by
    funext a; match a with | ⟨0, _⟩ => rfl | ⟨1, _⟩ => rfl
  have h2 : idx_main_v8 (idx_main_v9 (idx_main_v11 (ix3 b e h))) = ix2 (0 : Fin 1) h := by
    funext a
    match a with
    | ⟨0, _⟩ => rfl
    | ⟨1, _⟩ => exact Fin.ext (Nat.mod_eq_of_lt h.isLt)
  have h3 : idx_main_v13 (idx_main_v14 (ix3 b e h)) = ix1 h := by
    funext a; match a with | ⟨0, _⟩ => rfl
  rw [h1, h2, h3]

/-- The entity embeddings the reference forms (stage `main_v16`, [64, 128, 768]) are the specification's. -/
theorem emb_apply (I : Inputs) (et : IVec SBE 32) (tk : IVec STok 32) (hD : Dom I et tk)
    (b : Fin 64) (e : Fin 128) (h : Fin 768) :
    val_main_v16 (F := Ideal) et I.ec I.tt I.cw I.cb (ix3 b e h) = ((I.emb b e h : ℝ) : EReal) := by
  rw [val_main_v16_apply, Ideal.addf_def, type_row et I.tt b e h (I.ty b e) (hD.ty_eq b e), affine_apply]
  rw [hD.tt_fin, hD.ec_fin, hD.cw_fin, hD.cb_fin]
  unfold Inputs.emb
  rw [EReal.coe_add, EReal.coe_add, EReal.coe_mul]

/-! ## Sums: coercion into the extended reals, and the 512 update slabs as 128 entities by 4 tokens -/

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Flat position k of the reshaped token array is token k % 4 of entity k / 4. -/
def tokEquiv : Fin 128 × Fin 4 ≃ Fin 512 where
  toFun p := ⟨p.1.val * 4 + p.2.val, by omega⟩
  invFun k := (⟨k.val / 4, by omega⟩, ⟨k.val % 4, by omega⟩)
  left_inv p := by
    apply Prod.ext
    · exact Fin.ext (by show (p.1.val * 4 + p.2.val) / 4 = p.1.val; omega)
    · exact Fin.ext (by show (p.1.val * 4 + p.2.val) % 4 = p.2.val; omega)
  right_inv k := Fin.ext (by show k.val / 4 * 4 + k.val % 4 = k.val; omega)

/-- A sum over the 512 flat positions is the double sum over entities and their tokens. -/
theorem sum_flat (G : Fin 128 → Fin 4 → ℝ) :
    ∑ k : Fin 512, G ⟨k.val / 4, by omega⟩ ⟨k.val % 4, by omega⟩ = ∑ e : Fin 128, ∑ t : Fin 4, G e t :=
  (Equiv.sum_comp tokEquiv.symm (fun p : Fin 128 × Fin 4 => G p.1 p.2)).trans (Fintype.sum_prod_type _)

/-! ## The enhanced hidden state -/

/-- The position the scatter reads for update slab k: the token word itself, the wrap doing nothing. -/
theorem slab_word (tk : IVec STok 32) (k : Fin 512) (n : ℕ) (hn : n < 2 ^ 31)
    (htk : tk (ix2 (⟨k.val / 4, by omega⟩ : Fin 128) (⟨k.val % 4, by omega⟩ : Fin 4)) = BitVec.ofNat 32 n) :
    val_main_v25 (F := Ideal) tk (ix2 k (0 : Fin 1)) = BitVec.ofNat 32 n := by
  rw [val_main_v25_apply]
  have hi : idx_main_v25 (ix2 k (0 : Fin 1)) = ix1 k := by
    funext a; match a with | ⟨0, _⟩ => rfl
  have hj : idx_main_v17 (ix1 k) = ix2 (⟨k.val / 4, by omega⟩ : Fin 128) (⟨k.val % 4, by omega⟩ : Fin 4) := by
    funext a; match a with | ⟨0, _⟩ => rfl | ⟨1, _⟩ => rfl
  rw [hi, val_main_v24_apply, val_main_v21_apply, val_main_v23_apply, val_main_v17_apply, val_main_v20_apply,
    val_main_v22_apply, val_main_c_1_apply, val_main_c_2_apply, hj, htk]
  exact wrap_word n hn _

/-- Update slab k is the embedding of entity k / 4 (each entity's embedding is repeated for its four tokens). -/
theorem slab_apply (x1 : IVec SBE 32) (x2 : FVec Ideal SBE .f32) (x4 : FVec Ideal STab .f32)
    (x5 : FVec Ideal SRow .f32) (x6 : FVec Ideal SVec .f32) (b : Fin 64) (k : Fin 512) (h : Fin 768) :
    val_main_v19 (F := Ideal) x1 x2 x4 x5 x6 (ix3 b k h)
      = val_main_v16 (F := Ideal) x1 x2 x4 x5 x6 (ix3 b (⟨k.val / 4, by omega⟩ : Fin 128) h) := by
  rw [val_main_v19_apply, val_main_v18_apply]
  congr 1
  funext a
  match a with
  | ⟨0, _⟩ => exact Fin.ext (by show ((b.val * 512 + k.val) * 768 + h.val) / 393216 = b.val; omega)
  | ⟨1, _⟩ => exact Fin.ext (by show ((b.val * 512 + k.val) * 768 + h.val) / 3072 % 128 = k.val / 4; omega)
  | ⟨2, _⟩ => exact Fin.ext (by show ((b.val * 512 + k.val) * 768 + h.val) % 768 = h.val; omega)

/-- The reference's first result (the scatter-add, stage `main_v26`) is the enhanced hidden state. -/
theorem enhanced_eq (I : Inputs) (et : IVec SBE 32) (tk : IVec STok 32) (hD : Dom I et tk) :
    val_main_v26 (F := Ideal) I.hid et I.ec tk I.tt I.cw I.cb = I.G0 := by
  funext i
  obtain ⟨b, s, h, rfl⟩ : ∃ b s h, i = ix3 b s h := ⟨i 0, i 1, i 2, eq_ix3 i⟩
  rw [Inputs.G0_apply]
  unfold val_main_v26
  rw [Cert.LibScatterMid.scatterAdd_mid_apply _ rfl rfl rfl rfl _ _ _ b s h]
  -- the slabs that land on position s are the (entity, token) pairs whose token is s
  have hfilt : (Finset.univ.filter fun k : Fin 512 =>
        (val_main_v25 (F := Ideal) tk (ix2 k (0 : Fin 1))).toInt = (s.val : Int))
      = Finset.univ.filter fun k : Fin 512 =>
        I.tok (⟨k.val / 4, by omega⟩ : Fin 128) (⟨k.val % 4, by omega⟩ : Fin 4) = s := by
    refine Finset.filter_congr fun k _ => ?_
    have hlt : (I.tok (⟨k.val / 4, by omega⟩ : Fin 128) (⟨k.val % 4, by omega⟩ : Fin 4)).val < 2 ^ 31 := by
      have := (I.tok (⟨k.val / 4, by omega⟩ : Fin 128) (⟨k.val % 4, by omega⟩ : Fin 4)).isLt; omega
    rw [slab_word tk k _ hlt (hD.tok_eq _ _), toInt_small _ hlt, Nat.cast_inj, Fin.ext_iff]
  rw [hfilt, Finset.sum_congr rfl fun k _ => (slab_apply et I.ec I.tt I.cw I.cb b k h).trans
    (emb_apply I et tk hD b _ h), coe_sum, hD.hid_fin, ← EReal.coe_add]
  congr 1
  unfold Inputs.enh
  congr 1
  rw [Finset.sum_filter]
  exact (sum_flat fun e t => if I.tok e t = s then I.emb b e h else 0).trans
    (I.sum_cnt_mul s fun e => I.emb b e h).symm

/-! ## The pooled entity embeddings -/

/-- The divisor's pattern denotes the real number four. -/
theorem ofBits_four : Ideal.ofBits .f32 0x40800000#32 = ((4 : ℝ) : EReal) := by
  simp [Ideal.ofBits, Ideal.ieee, -EReal.coe_mul]; norm_num

/-- The position the second gather reads for token t of entity e: the token word itself, the wrap doing nothing. -/
theorem tok_word (tk : IVec STok 32) (e : Fin 128) (t : Fin 4) (n : ℕ) (hn : n < 2 ^ 31)
    (htk : tk (ix2 e t) = BitVec.ofNat 32 n) :
    val_main_v32 (F := Ideal) tk (ix3 e t (0 : Fin 1)) = BitVec.ofNat 32 n := by
  rw [val_main_v32_apply]
  have hi : idx_main_v32 (ix3 e t (0 : Fin 1)) = ix2 e t := by
    funext a; match a with | ⟨0, _⟩ => rfl | ⟨1, _⟩ => rfl
  rw [hi, val_main_v31_apply, val_main_v28_apply, val_main_v30_apply, val_main_v27_apply, val_main_v29_apply,
    val_main_c_3_apply, val_main_c_4_apply, htk]
  exact wrap_word n hn _

/-- The second gather reads the enhanced hidden state at the entity's tokens: entry (b, e, t, h) is the enhanced
    state of row b at position tok e t, column h. -/
theorem gathered_apply (I : Inputs) (et : IVec SBE 32) (tk : IVec STok 32) (hD : Dom I et tk)
    (b : Fin 64) (e : Fin 128) (t : Fin 4) (h : Fin 768) :
    val_main_v33 (F := Ideal) I.hid et I.ec tk I.tt I.cw I.cb (ix4 b e t h)
      = ((I.enh b (I.tok e t) h : ℝ) : EReal) := by
  unfold val_main_v33
  rw [Cert.LibGather4.gather_mid4_apply _ rfl rfl rfl rfl rfl rfl _ _ b e t h (by norm_num),
    enhanced_eq I et tk hD, ← Inputs.G0_apply]
  have hlt : (I.tok e t).val < 2 ^ 31 := by have := (I.tok e t).isLt; omega
  have hc : min (val_main_v32 (F := Ideal) tk (ix3 e t (0 : Fin 1))).toInt.toNat (512 - 1) = (I.tok e t).val := by
    rw [tok_word tk e t _ hlt (hD.tok_eq e t)]
    exact clamp_word _ _ hlt (by have := (I.tok e t).isLt; omega)
  congr 1
  funext a
  match a with
  | ⟨0, _⟩ => rfl
  | ⟨1, _⟩ => exact Fin.ext hc
  | ⟨2, _⟩ => rfl

/-- The reference's second result (gather, sum over the four tokens, quotient by four: stage `main_v36`) is the pooled
    entity embedding. -/
theorem pooled_eq (I : Inputs) (et : IVec SBE 32) (tk : IVec STok 32) (hD : Dom I et tk) :
    val_main_v36 (F := Ideal) I.hid et I.ec tk I.tt I.cw I.cb = I.G1 := by
  funext i
  obtain ⟨b, e, h, rfl⟩ : ∃ b e h, i = ix3 b e h := ⟨i 0, i 1, i 2, eq_ix3 i⟩
  rw [Inputs.G1_apply, val_main_v36_apply, Ideal.hostDivf_def, val_main_v35_apply, val_main_cst_5_apply,
    Ideal.ofBits_def, ofBits_four, Ideal.div_coe (by norm_num : (4 : ℝ) ≠ 0), val_main_v34_apply,
    val_main_cst_apply, Ideal.ofBits_def, Ideal.ofBits_zero_f32, zero_add]
  have hsum : ∀ t : Fin 4,
      val_main_v33 (F := Ideal) I.hid et I.ec tk I.tt I.cw I.cb (idx_main_v34 (ix3 b e h) t)
        = ((I.enh b (I.tok e t) h : ℝ) : EReal) := by
    intro t
    have hi : idx_main_v34 (ix3 b e h) t = ix4 b e t h := by
      funext a; match a with | ⟨0, _⟩ => rfl | ⟨1, _⟩ => rfl | ⟨2, _⟩ => rfl | ⟨3, _⟩ => rfl
    rw [hi]
    exact gathered_apply I et tk hD b e t h
  rw [Finset.sum_congr rfl fun t _ => hsum t, coe_sum, ← EReal.coe_mul]
  congr 1
  unfold Inputs.pool
  rw [I.sum_cnt_mul_pos e fun s => I.enh b s h]
  ring

end Cert.ReferenceIdeal.RefValue

end
-- ==== Proof.lean ====
/-
  The certificate of an entity-aware enhancement of hidden states and the mean pooling that follows it.

  Each of 64 batch rows has 512 token positions with a hidden state of 768 columns, and 128 entities; an entity has a
  type (a row of a 5-row table), a confidence and four token positions. The reference gathers each entity's table row,
  adds confidence times a weight row plus a bias, scatter-adds that embedding onto the hidden states at each of the
  entity's four positions, then gathers the enhanced states back at those positions and takes their mean. The kernel
  never gathers or scatters: from the token positions it builds, once, the matrix of multiplicities M(s, e) = how many
  of entity e's tokens sit at position s; the scatter-add is then the product of M with the embeddings, and the pooled
  sum the product of the transpose of M with the enhanced states, times one quarter. Both products are computed as a
  product with the operand plus a product with the operand minus itself, which over the reals is the product itself.

  The two agree where every float input is a real number (an extended real minus itself is zero only then), every
  entity type is a row number 0 … 4 of the table and every token a position 0 … 511 (outside those ranges the
  reference's indexing wraps and clamps while the kernel's one-hot comparison and multiplicity count see nothing):
  the precondition says exactly this. Both programs' results are then the two functions of Proof/Spec.lean, stated
  over the reals: for the reference by reading its stages at an index (Proof/RefValue.lean, over two gathers and a
  scatter read in Proof/LibGather3.lean, LibGather4.lean, LibScatterMid.lean), for the kernel by reading one batch
  row of its body (Proof/KBody.lean, KRows.lean), the arrays its host operations prepare (Proof/KHost.lean), and the
  sixteen blocks its grid writes back (Proof/KBlocks.lean). The frames and the facts are the generated ones; the
  idealization's eight rewrites are each the statement that widening a narrowed value is the identity on extended reals.
-/
import proofs.«414526_j26903675142736_3_alg».proof.Defs
import proofs.«414526_j26903675142736_3_alg».proof.Proof.Gen.Kernel
import proofs.«414526_j26903675142736_3_alg».proof.Proof.Gen.Kernel.Skeleton
import proofs.«414526_j26903675142736_3_alg».proof.Proof.Gen.Kernel.Launch
import proofs.«414526_j26903675142736_3_alg».proof.Proof.Gen.Kernel.Points
import proofs.«414526_j26903675142736_3_alg».proof.Proof.Gen.Kernel.Frame
import proofs.«414526_j26903675142736_3_alg».proof.Proof.Gen.KernelIdeal
import proofs.«414526_j26903675142736_3_alg».proof.Proof.Gen.KernelIdeal.Skeleton
import proofs.«414526_j26903675142736_3_alg».proof.Proof.Gen.KernelIdeal.Launch
import proofs.«414526_j26903675142736_3_alg».proof.Proof.Gen.KernelIdeal.Points
import proofs.«414526_j26903675142736_3_alg».proof.Proof.Gen.KernelIdeal.Frame
import proofs.«414526_j26903675142736_3_alg».proof.Proof.Gen.ReferenceIdeal
import proofs.«414526_j26903675142736_3_alg».proof.Proof.Gen.Pre_finite_inputs
import proofs.«414526_j26903675142736_3_alg».proof.Proof.Gen.KernelIdeal.Value
import proofs.«414526_j26903675142736_3_alg».proof.Proof.Gen.ReferenceIdeal.Run
import proofs.«414526_j26903675142736_3_alg».proof.Proof.Gen.ReferenceIdeal.Read
import proofs.«414526_j26903675142736_3_alg».proof.Proof.Pre
import proofs.«414526_j26903675142736_3_alg».proof.Proof.KBlocks
import proofs.«414526_j26903675142736_3_alg».proof.Proof.RefValue
import Idealize.ShloMosaic.Adequacy
import Idealize.ShloMosaic.Init

noncomputable section

namespace Cert.Proof

open Idealize.ShloMosaic Idealize.SL.Sem Cert.Kernel Cert.EntityPool

/-- The word-level kernel runs and leaves its arguments alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization's eight rewrites, four at each of two shapes: a value narrowed to bf16 and widened back is the
    value itself on the extended reals, and at the word level the rounding through bf16. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- From memories agreeing on the arguments both idealized programs end with the specification's two functions of the
    inputs: the kernel by its blocks, the reference by its stages; the decoded types and tokens come from the
    precondition. -/
theorem algebraic : Cert.algebraic_KernelIdeal_ReferenceIdeal := by
  intro m ρ m' ρ' hpre hagree
  have hdom : ∀ c : Dev Cert.KernelIdeal.nD, ∃ (ty : Fin 64 → Fin 128 → Fin 5) (tok : Fin 128 → Fin 4 → Fin 512),
      Dom (Cert.KernelIdeal.Blocks.inp m c ty tok)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)) :=
    fun c => dom_of_pre _ _ _ _ _ _ _ (hpre c)
  choose ty tok hD using hdom
  refine ⟨fun c => (Cert.KernelIdeal.Blocks.inp m c (ty c) (tok c)).G0,
    fun c => (Cert.KernelIdeal.Blocks.inp m c (ty c) (tok c)).G1,
    Cert.KernelIdeal.Blocks.run m ρ ty tok hD, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1,
      (hagree c).2.2.2.2.2.1, (hagree c).2.2.2.2.2.2]
    exact (Cert.ReferenceIdeal.Read.val_main_v26_eq _ _ _ _ _ _ _).trans
      (Cert.ReferenceIdeal.RefValue.enhanced_eq (Cert.KernelIdeal.Blocks.inp m c (ty c) (tok c)) _ _ (hD c))
  · rw [(hagree c).1, (hagree c).2.1, (hagree c).2.2.1, (hagree c).2.2.2.1, (hagree c).2.2.2.2.1,
      (hagree c).2.2.2.2.2.1, (hagree c).2.2.2.2.2.2]
    exact (Cert.ReferenceIdeal.Read.val_main_v36_eq _ _ _ _ _ _ _).trans
      (Cert.ReferenceIdeal.RefValue.pooled_eq (Cert.KernelIdeal.Blocks.inp m c (ty c) (tok c)) _ _ (hD c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
